-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  IdealRules.named_const.Statement Cert.KernelIdeal.κ "inv_keep_prob" .f32 0x3F8E38E4#32 ((8388608 / 7549747 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x8x64 : Shape := ⟨4, ![4, 2048, 8, 64]⟩
abbrev S64x64 : Shape := ⟨2, ![64, 64]⟩
abbrev S64 : Shape := ⟨1, ![64]⟩
abbrev S4x8x2048x2048 : Shape := ⟨4, ![4, 8, 2048, 2048]⟩
abbrev S_ : Shape := ⟨0, ![]⟩

class Facts : Prop where
  bcast_S_S4x2048x8x64 : S_.BroadcastsInDim S4x2048x8x64 (![] : Fin 0 → Fin S4x2048x8x64.rank)
  reducesTo_S4x2048x8x64_S_d0_1_2_3 : S4x2048x8x64.ReducesTo [0, 1, 2, 3] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64x64 .f32) (main_arg8 : FVec F S64 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S64 .f32) (main_arg5 : FVec F S64x64 .f32) (main_arg6 : FVec F S64 .f32) (main_arg7 : FVec F S64x64 .f32) (main_arg8 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S4x2048x8x64 .f32) (main_arg1 : FVec F S4x2048x8x64 .f32) (main_arg2 : FVec F S4x2048x8x64 .f32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : IVec S4x8x2048x2048 1) : IVec S_ 1 :=
  let main_v0 : FVec F S4x2048x8x64 .f32 := Host.absf main_arg0
  let main_cst : FVec F S_ .f32 := constant S_ .f32 0x7F800000#32
  let main_v1 : FVec F S4x2048x8x64 .f32 := broadcastInDim S4x2048x8x64 ![] bcast_S_S4x2048x8x64 main_cst
  let main_v2 : IVec S4x2048x8x64 1 := cmpf .olt main_v0 main_v1
  let main_c : IVec S_ 1 := constantI S_ 1 1#1
  let main_v3 : IVec S_ 1 := (fun x v => Host.reduce IntOp.andi x v reducesTo_S4x2048x8x64_S_d0_1_2_3 h_S_) main_v2 main_c
  let main_v4 : FVec F S4x2048x8x64 .f32 := Host.absf main_arg1
  let main_cst_0 : FVec F S_ .f32 := constant S_ .f32 0x7F800000#32
  let main_v5 : FVec F S4x2048x8x64 .f32 := broadcastInDim S4x2048x8x64 ![] bcast_S_S4x2048x8x64 main_cst_0
  let main_v6 : IVec S4x2048x8x64 1 := cmpf .olt main_v4 main_v5
  let main_c_1 : IVec S_ 1 := constantI S_ 1 1#1
  let main_v7 : IVec S_ 1 := (fun x v => Host.reduce IntOp.andi x v reducesTo_S4x2048x8x64_S_d0_1_2_3 h_S_) main_v6 main_c_1
  let main_v8 : IVec S_ 1 := andi main_v3 main_v7
  let main_v9 : FVec F S4x2048x8x64 .f32 := Host.absf main_arg2
  let main_cst_2 : FVec F S_ .f32 := constant S_ .f32 0x7F800000#32
  let main_v10 : FVec F S4x2048x8x64 .f32 := broadcastInDim S4x2048x8x64 ![] bcast_S_S4x2048x8x64 main_cst_2
  let main_v11 : IVec S4x2048x8x64 1 := cmpf .olt main_v9 main_v10
  let main_c_3 : IVec S_ 1 := constantI S_ 1 1#1
  let main_v12 : IVec S_ 1 := (fun x v => Host.reduce IntOp.andi x v reducesTo_S4x2048x8x64_S_d0_1_2_3 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_v13 main_v16
-- ==== Kernel.lean ====
abbrev S4x2048x8x64 : Shape := ⟨4, ![4, 2048, 8, 64]⟩
abbrev S64x64 : Shape := ⟨2, ![64, 64]⟩
abbrev S64 : Shape := ⟨1, ![64]⟩
abbrev S4x8x2048x2048 : Shape := ⟨4, ![4, 8, 2048, 2048]⟩
abbrev S4x8x2048x64 : Shape := ⟨4, ![4, 8, 2048, 64]⟩
abbrev S1x1x512x64 : Shape := ⟨4, ![1, 1, 512, 64]⟩
abbrev S1x1x2048x64 : Shape := ⟨4, ![1, 1, 2048, 64]⟩
abbrev S1x1x512x2048 : Shape := ⟨4, ![1, 1, 512, 2048]⟩
abbrev S512x64 : Shape := ⟨2, ![512, 64]⟩
abbrev S2048x64 : Shape := ⟨2, ![2048, 64]⟩
abbrev S1x64 : Shape := ⟨2, ![1, 64]⟩
abbrev S64x2048 : Shape := ⟨2, ![64, 2048]⟩
abbrev S512x2048 : Shape := ⟨2, ![512, 2048]⟩
abbrev S512 : Shape := ⟨1, ![512]⟩
abbrev S512x1 : Shape := ⟨2, ![512, 1]⟩

abbrev nBuf : Space → Nat
  | .hbm => 15
  | .vmem => 16
  | .smem => 0
  | _ => 0

abbrev bufTy : (tb : Table) → Fin (tcTables nBuf tb) → BufTy
  | .hbm, ⟨0, _⟩ => ⟨S4x2048x8x64, .f32⟩
  | .hbm, ⟨1, _⟩ => ⟨S4x2048x8x64, .f32⟩
  | .hbm, ⟨2, _⟩ => ⟨S4x2048x8x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S4x8x2048x2048, .i1⟩
  | .hbm, ⟨10, _⟩ => ⟨S4x8x2048x64, .f32⟩
  | .hbm, ⟨11, _⟩ => ⟨S4x8x2048x64, .f32⟩
  | .hbm, ⟨12, _⟩ => ⟨S4x8x2048x64, .f32⟩
  | .hbm, ⟨13, _⟩ => ⟨S4x8x2048x2048, .i32⟩
  | .hbm, ⟨14, _⟩ => ⟨S4x8x2048x64, .f32⟩
  | .local _ .vmem, ⟨0, _⟩ => ⟨S1x1x512x64, .f32⟩
  | .local _ .vmem, ⟨1, _⟩ => ⟨S1x1x512x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S64x64, .f32⟩
  | .local _ .vmem, ⟨7, _⟩ => ⟨S64, .f32⟩
  | .local _ .vmem, ⟨8, _⟩ => ⟨S64x64, .f32⟩
  | .local _ .vmem, ⟨9, _⟩ => ⟨S64, .f32⟩
  | .local _ .vmem, ⟨10, _⟩ => ⟨S64x64, .f32⟩
  | .local _ .vmem, ⟨11, _⟩ => ⟨S64, .f32⟩
  | .local _ .vmem, ⟨12, _⟩ => ⟨S1x1x512x2048, .i32⟩
  | .local _ .vmem, ⟨13, _⟩ => ⟨S1x1x512x2048, .i32⟩
  | .local _ .vmem, ⟨14, _⟩ => ⟨S1x1x512x64, .f32⟩
  | .local _ .vmem, ⟨15, _⟩ => ⟨S1x1x512x64, .f32⟩
  | _, _ => ⟨S4x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨3, ![4, 8, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x1x512x2048 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x512x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

class Facts₀ : Prop where
  transposes_S4x2048x8x64_S4x8x2048x64_0_2_1_3 : S4x2048x8x64.Transposes [0, 2, 1, 3] S4x8x2048x64
  natLt_1_32 : 1 < 32
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S512x64 : S1x64.Broadcasts S512x64
  broadcasts_S1x64_S2048x64 : S1x64.Broadcasts S2048x64
  transposes_S2048x64_p1_0_S64x2048 : S2048x64.Transposes [1, 0] S64x2048
  reduces_S512x2048_S512 : S512x2048.Reduces [1] S512
  shapeCasts_S512_S512x1 : S512.ShapeCasts S512x1
  broadcasts_S512x1_S512x2048 : S512x1.Broadcasts S512x2048
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  shapeCasts_S512x64_S1x1x512x64 : S512x64.ShapeCasts S1x1x512x64
  dot_S512x64_S64x64_S512x64_1_0_0_1_n_n_wf : DotDims.WF S512x64 S64x64 S512x64 [1] [0] [0] [1] [] []
  dot_S2048x64_S64x64_S2048x64_1_0_0_1_n_n_wf : DotDims.WF S2048x64 S64x64 S2048x64 [1] [0] [0] [1] [] []
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S4x8x2048x64.size a
  hwx0_0 : ∀ i : grid0.Coords, EltTy.bits .f32 = 32 ∨ (Rect.block (s := S4x8x2048x64) S1x1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S4x8x2048x64.size a
  hwx0_1 : ∀ i : grid0.Coords, EltTy.bits .f32 = 32 ∨ (Rect.block (s := S4x8x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S4x8x2048x64.size a
  hwx0_2 : ∀ i : grid0.Coords, EltTy.bits .f32 = 32 ∨ (Rect.block (s := S4x8x2048x64) S1x1x2048x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x512x2048.size a ≤ S4x8x2048x2048.size a
  hwx0_9 : ∀ i : grid0.Coords, EltTy.bits .i32 = 32 ∨ (Rect.block (s := S4x8x2048x2048) S1x1x512x2048.size (cc0_transform_9 i) (hinb0_9 i)).WholeWords (EltTy.packing .i32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1x512x64.size a ≤ S4x8x2048x64.size a
  hwx0_10 : ∀ i : grid0.Coords, EltTy.bits .f32 = 32 ∨ (Rect.block (s := S4x8x2048x64) S1x1x512x64.size (cc0_transform_10 i) (hinb0_10 i)).WholeWords (EltTy.packing .f32)

variable [Facts₀]

def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S1x1x512x2048.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v4) S1x1x512x64.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S4x2048x8x64 : Shape := ⟨4, ![4, 2048, 8, 64]⟩
abbrev S64x64 : Shape := ⟨2, ![64, 64]⟩
abbrev S64 : Shape := ⟨1, ![64]⟩
abbrev S4x8x2048x2048 : Shape := ⟨4, ![4, 8, 2048, 2048]⟩
abbrev S1x1x1x64 : Shape := ⟨4, ![1, 1, 1, 64]⟩
abbrev S4x8x2048x64 : Shape := ⟨4, ![4, 8, 2048, 64]⟩
abbrev S_ : Shape := ⟨0, ![]⟩
abbrev S4x8x2048 : Shape := ⟨3, ![4, 8, 2048]⟩
abbrev S4x8x2048x1 : Shape := ⟨4, ![4, 8, 2048, 1]⟩

abbrev nBuf : Space → Nat
  | .hbm => 51
  | .vmem => 0
  | .smem => 0
  | _ => 0

abbrev bufTy : (tb : Table) → Fin (tcTables nBuf tb) → BufTy
  | .hbm, ⟨0, _⟩ => ⟨S4x2048x8x64, .f32⟩
  | .hbm, ⟨1, _⟩ => ⟨S4x2048x8x64, .f32⟩
  | .hbm, ⟨2, _⟩ => ⟨S4x2048x8x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S4x8x2048x2048, .i1⟩
  | .hbm, ⟨10, _⟩ => ⟨S4x2048x8x64, .f32⟩
  | .hbm, ⟨11, _⟩ => ⟨S1x1x1x64, .f32⟩
  | .hbm, ⟨12, _⟩ => ⟨S4x2048x8x64, .f32⟩
  | .hbm, ⟨13, _⟩ => ⟨S4x2048x8x64, .f32⟩
  | .hbm, ⟨14, _⟩ => ⟨S4x8x2048x64, .f32⟩
  | .hbm, ⟨15, _⟩ => ⟨S4x2048x8x64, .f32⟩
  | .hbm, ⟨16, _⟩ => ⟨S1x1x1x64, .f32⟩
  | .hbm, ⟨17, _⟩ => ⟨S4x2048x8x64, .f32⟩
  | .hbm, ⟨18, _⟩ => ⟨S4x2048x8x64, .f32⟩
  | .hbm, ⟨19, _⟩ => ⟨S4x8x2048x64, .f32⟩
  | .hbm, ⟨20, _⟩ => ⟨S4x2048x8x64, .f32⟩
  | .hbm, ⟨21, _⟩ => ⟨S1x1x1x64, .f32⟩
  | .hbm, ⟨22, _⟩ => ⟨S4x2048x8x64, .f32⟩
  | .hbm, ⟨23, _⟩ => ⟨S4x2048x8x64, .f32⟩
  | .hbm, ⟨24, _⟩ => ⟨S4x8x2048x64, .f32⟩
  | .hbm, ⟨25, _⟩ => ⟨S4x8x2048x2048, .f32⟩
  | .hbm, ⟨26, _⟩ => ⟨S_, .f32⟩
  | .hbm, ⟨27, _⟩ => ⟨S4x8x2048x2048, .f32⟩
  | .hbm, ⟨28, _⟩ => ⟨S4x8x2048x2048, .f32⟩
  | .hbm, ⟨29, _⟩ => ⟨S_, .f32⟩
  | .hbm, ⟨30, _⟩ => ⟨S4x8x2048, .f32⟩
  | .hbm, ⟨31, _⟩ => ⟨S_, .f32⟩
  | .hbm, ⟨32, _⟩ => ⟨S4x8x2048, .f32⟩
  | .hbm, ⟨33, _⟩ => ⟨S4x8x2048, .f32⟩
  | .hbm, ⟨34, _⟩ => ⟨S4x8x2048x1, .f32⟩
  | .hbm, ⟨35, _⟩ => ⟨S4x8x2048x2048, .f32⟩
  | .hbm, ⟨36, _⟩ => ⟨S4x8x2048x2048, .f32⟩
  | .hbm, ⟨37, _⟩ => ⟨S4x8x2048x2048, .f32⟩
  | .hbm, ⟨38, _⟩ => ⟨S_, .f32⟩
  | .hbm, ⟨39, _⟩ => ⟨S4x8x2048, .f32⟩
  | .hbm, ⟨40, _⟩ => ⟨S4x8x2048x1, .f32⟩
  | .hbm, ⟨41, _⟩ => ⟨S4x8x2048x2048, .f32⟩
  | .hbm, ⟨42, _⟩ => ⟨S4x8x2048x2048, .f32⟩
  | .hbm, ⟨43, _⟩ => ⟨S_, .f32⟩
  | .hbm, ⟨44, _⟩ => ⟨S4x8x2048x2048, .f32⟩
  | .hbm, ⟨45, _⟩ => ⟨S4x8x2048x2048, .f32⟩
  | .hbm, ⟨46, _⟩ => ⟨S_, .f32⟩
  | .hbm, ⟨47, _⟩ => ⟨S_, .f32⟩
  | .hbm, ⟨48, _⟩ => ⟨S4x8x2048x2048, .f32⟩
  | .hbm, ⟨49, _⟩ => ⟨S4x8x2048x2048, .f32⟩
  | .hbm, ⟨50, _⟩ => ⟨S4x8x2048x64, .f32⟩
  | _, _ => ⟨S4x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_v17 : Ref sig .tc := ⟨.hbm, 28, rfl⟩
abbrev main_cst_0 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_call0_v0 : Ref sig .tc := ⟨.hbm, 47, rfl⟩
abbrev main_call0_v1 : Ref sig .tc := ⟨.hbm, 48, rfl⟩
abbrev main_v31 : Ref sig .tc := ⟨.hbm, 49, rfl⟩
abbrev main_v32 : Ref sig .tc := ⟨.hbm, 50, rfl⟩

abbrev nD : Nat := 1
abbrev τ : Topo := Topo.v7x

variable {F : FTy → Type} [FloatOps F]

class Facts₀ : Prop where
  bcast_S64_S1x1x1x64_3 : S64.BroadcastsInDim S1x1x1x64 (![3] : Fin 1 → Fin S1x1x1x64.rank)
  bcast_S1x1x1x64_S4x2048x8x64_0_1_2_3 : S1x1x1x64.BroadcastsInDim S4x2048x8x64 (![0, 1, 2, 3] : Fin 4 → Fin S4x2048x8x64.rank)
  transposes_S4x2048x8x64_S4x8x2048x64_0_2_1_3 : S4x2048x8x64.Transposes [0, 2, 1, 3] S4x8x2048x64
  bcast_S_S4x8x2048x2048 : S_.BroadcastsInDim S4x8x2048x2048 (![] : Fin 0 → Fin S4x8x2048x2048.rank)
  reducesTo_S4x8x2048x2048_S4x8x2048_d3 : S4x8x2048x2048.ReducesTo [3] S4x8x2048
  h_S_ : 0 < S_.numel
  bcast_S_S4x8x2048 : S_.BroadcastsInDim S4x8x2048 (![] : Fin 0 → Fin S4x8x2048.rank)
  bcast_S4x8x2048_S4x8x2048x1_0_1_2 : S4x8x2048.BroadcastsInDim S4x8x2048x1 (![0, 1, 2] : Fin 3 → Fin S4x8x2048x1.rank)
  bcast_S4x8x2048x1_S4x8x2048x2048_0_1_2_3 : S4x8x2048x1.BroadcastsInDim S4x8x2048x2048 (![0, 1, 2, 3] : Fin 4 → Fin S4x8x2048x2048.rank)
  dot_S4x2048x8x64_S64x64_S4x2048x8x64_3_0_012_1_n_n_wf : DotDims.WF S4x2048x8x64 S64x64 S4x2048x8x64 [3] [0] [0, 1, 2] [1] [] []
  dot_S4x8x2048x64_S4x8x2048x64_S4x8x2048x2048_3_3_2_2_01_01_wf : DotDims.WF S4x8x2048x64 S4x8x2048x64 S4x8x2048x2048 [3] [3] [2] [2] [0, 1] [0, 1]
  dot_S4x8x2048x2048_S4x8x2048x64_S4x8x2048x64_3_2_2_3_01_01_wf : DotDims.WF S4x8x2048x2048 S4x8x2048x64 S4x8x2048x64 [3] [2] [2] [3] [0, 1] [0, 1]

variable [Facts₀]

def dot_S4x2048x8x64_S64x64_S4x2048x8x64_3_0_012_1_n_n : DotDims S4x2048x8x64 S64x64 S4x2048x8x64 where
  lhsContracting := [3]
  rhsContracting := [0]
  lhsNonContracting := [0, 1, 2]
  rhsNonContracting := [1]
  lhsBatch := []
  rhsBatch := []
  wf := dot_S4x2048x8x64_S64x64_S4x2048x8x64_3_0_012_1_n_n_wf
def dot_S4x8x2048x64_S4x8x2048x64_S4x8x2048x2048_3_3_2_2_01_01 : DotDims S4x8x2048x64 S4x8x2048x64 S4x8x2048x2048 where
  lhsContracting := [3]
  rhsContracting := [3]
  lhsNonContracting := [2]
  rhsNonContracting := [2]
  lhsBatch := [0, 1]
  rhsBatch := [0, 1]
  wf := dot_S4x8x2048x64_S4x8x2048x64_S4x8x2048x2048_3_3_2_2_01_01_wf
def dot_S4x8x2048x2048_S4x8x2048x64_S4x8x2048x64_3_2_2_3_01_01 : DotDims S4x8x2048x2048 S4x8x2048x64 S4x8x2048x64 where
  lhsContracting := [3]
  rhsContracting := [2]
  lhsNonContracting := [2]
  rhsNonContracting := [3]
  lhsBatch := [0, 1]
  rhsBatch := [0, 1]
  wf := dot_S4x8x2048x2048_S4x8x2048x64_S4x8x2048x64_3_2_2_3_01_01_wf

class Facts : Prop extends Facts₀ where

variable [Facts]
-- ==== Proof.HeadSpec.lean ====
/-
  One attention head with inverted dropout, one query row at a time, over the extended reals.

  For a batch entry b and a head h the result row at sequence position s is a function of ONE raw query row, of ALL
  raw key rows and ALL raw value rows of that batch entry and head, and of ONE row of the keep mask:
    q = x_q W_q + b_q,   k_t = x_{k,t} W_k + b_k,   v_t = x_{v,t} W_v + b_v          (64 features each)
    score_t = (q . k_t) * (1/8)                                                       (8 = sqrt 64)
    p_t     = exp (score_t - max_u score_u) / sum_u exp (score_u - max_u score_u)
    d_t     = p_t * (1 / D) where the mask keeps position t, 0 where it drops it      (D = the f32 word of 0.9)
    out_e   = sum_t d_t * v_t[e].
  `head` is that row; `G` is the whole [4, 8, 2048, 64] array read off the raw [4, 2048, 8, 64] inputs.

  Two constants meet here in two spellings. Dividing by 8 is multiplying by 1/8 on every extended real, and dividing
  by D = 7549747/8388608 is multiplying by its reciprocal 8388608/7549747 (`div_eight`, `div_keep`): division by a
  nonzero real constant is the product with its inverse at the infinities too.
-/
import Idealize.ShloMosaic.PureOps.Ideal
import Idealize.ShloMosaic.PureOps.Ideal.Laws
import Idealize.ShloMosaic.Lib.ValueIdx
import Mathlib.Data.Finset.Fold

noncomputable section

namespace Cert.Attn

open Idealize.ShloMosaic Idealize.ShloMosaic.ValueIdx

/-- A [64, 64] weight matrix and a [64] bias, as arrays of extended reals. -/
abbrev Mat64 := (⟨2, ![64, 64]⟩ : Shape).Idx → EReal
abbrev Vec64 := (⟨1, ![64]⟩ : Shape).Idx → EReal
/-- The raw inputs [4, 2048, 8, 64] (batch, position, head, feature), the mask [4, 8, 2048, 2048] and the result
    [4, 8, 2048, 64] (batch, head, position, feature). -/
abbrev Raw := (⟨4, ![4, 2048, 8, 64]⟩ : Shape).Idx → EReal
abbrev Mask := (⟨4, ![4, 8, 2048, 2048]⟩ : Shape).Idx → BitVec 1
abbrev Out := (⟨4, ![4, 8, 2048, 64]⟩ : Shape).Idx → EReal

/-! ## The constants -/

/-- The multiplier 1/8 of the scores. -/
def eighth : EReal := ((1 / 8 : ℝ) : EReal)
/-- The reciprocal of the keep probability's f32 word D = 7549747/8388608. -/
def invKeep : EReal := ((8388608 / 7549747 : ℝ) : EReal)
/-- The start value of a row maximum: the f32 word of minus infinity. -/
def negInf : EReal := Ideal.ofBits .f32 0xFF800000#32
/-- What a dropped position contributes: the f32 word of zero. -/
def zeroWord : EReal := Ideal.ofBits .f32 0x00000000#32

/-- The word 0x3E000000 denotes 1/8. -/
theorem ofBits_eighth : Ideal.ofBits .f32 0x3E000000#32 = eighth := by
  unfold eighth
  simp [Ideal.ofBits, Ideal.ieee, -EReal.coe_mul]; norm_num

/-- The word 0x41000000 denotes 8. -/
theorem ofBits_eight : Ideal.ofBits .f32 0x41000000#32 = ((8 : ℝ) : EReal) := by
  simp [Ideal.ofBits, Ideal.ieee, -EReal.coe_mul]; norm_num

/-- The word 0x3F666666 denotes D = 7549747/8388608. -/
theorem ofBits_keep : Ideal.ofBits .f32 0x3F666666#32 = ((7549747 / 8388608 : ℝ) : EReal) := by
  simp [Ideal.ofBits, Ideal.ieee, -EReal.coe_mul]; norm_num

/-- Dividing by the word of 8 is multiplying by 1/8, on every extended real. -/
theorem div_eight (x : EReal) : Ideal.div x (Ideal.ofBits .f32 0x41000000#32) = x * eighth := by
  rw [ofBits_eight, Ideal.div_coe (by norm_num : (8 : ℝ) ≠ 0)]; rfl

/-- Dividing by the word of D is multiplying by 1/D, on every extended real. -/
theorem div_keep (x : EReal) : Ideal.div x (Ideal.ofBits .f32 0x3F666666#32) = x * invKeep := by
  rw [ofBits_keep, Ideal.div_coe (by norm_num : (7549747 / 8388608 : ℝ) ≠ 0)]
  unfold invKeep
  congr 2; norm_num

/-! ## One row -/

/-- A linear layer at output feature f: the row times column f of the weights, plus the bias. -/
def lin (W : Mat64) (b : Vec64) (x : Fin 64 → EReal) (f : Fin 64) : EReal :=
  (∑ e : Fin 64, x e * W (ix2 e f)) + b (ix1 f)

/-- The scaled score of the query row against key row t. -/
def score (Wq : Mat64) (bq : Vec64) (Wk : Mat64) (bk : Vec64) (q : Fin 64 → EReal) (k : Fin 2048 → Fin 64 → EReal)
    (t : Fin 2048) : EReal :=
  (∑ f : Fin 64, lin Wq bq q f * lin Wk bk (k t) f) * eighth

/-- The maximum of a row of scores, from minus infinity. -/
def rowMax (sc : Fin 2048 → EReal) : EReal := (Finset.univ : Finset (Fin 2048)).fold max negInf sc

/-- The shifted exponential of position t. -/
def expShift (sc : Fin 2048 → EReal) (t : Fin 2048) : EReal := Ideal.exp (sc t - rowMax sc)

/-- The softmax of a row of scores at position t. -/
def softmax (sc : Fin 2048 → EReal) (t : Fin 2048) : EReal :=
  Ideal.div (expShift sc t) (∑ u : Fin 2048, expShift sc u)

/-- Inverted dropout of one probability: scaled by 1/D where kept, the zero word where dropped. -/
def dropout (keep : BitVec 1) (p : EReal) : EReal := Scalar.select keep (p * invKeep) zeroWord

/-- The result row at feature e. -/
def head (Wq : Mat64) (bq : Vec64) (Wk : Mat64) (bk : Vec64) (Wv : Mat64) (bv : Vec64) (q : Fin 64 → EReal)
    (k v : Fin 2048 → Fin 64 → EReal) (keep : Fin 2048 → BitVec 1) (e : Fin 64) : EReal :=
  ∑ t : Fin 2048, dropout (keep t) (softmax (score Wq bq Wk bk q k) t) * lin Wv bv (v t) e

/-! ## The whole array -/

/-- The result array [4, 8, 2048, 64] as one function of the raw inputs: at (b, h, s, e) the head's row for the query
    row (b, s, h), the key and value rows (b, t, h) and the mask row (b, h, s). -/
def G (xq xk xv : Raw) (Wq : Mat64) (bq : Vec64) (Wk : Mat64) (bk : Vec64) (Wv : Mat64) (bv : Vec64) (mask : Mask) : Out :=
  fun i => head Wq bq Wk bk Wv bv (fun e => xq (ix4 (i 0) (i 2) (i 1) e)) (fun t e => xk (ix4 (i 0) t (i 1) e))
    (fun t e => xv (ix4 (i 0) t (i 1) e)) (fun t => mask (ix4 (i 0) (i 1) (i 2) t)) (i 3)

/-- The row maximum from minus infinity is at least minus infinity, so taking the maximum with it again changes nothing. -/
theorem max_negInf_rowMax (sc : Fin 2048 → EReal) : max negInf (rowMax sc) = rowMax sc :=
  max_eq_right ((Finset.le_fold_max _).mpr (Or.inl le_rfl))

end Cert.Attn

end
-- ==== Proof.LibRowOps.lean ====
/-
  Row-wise operations of an [n, m] array read at an index, over the extended reals.

  A kernel that reduces each row of a block with keepdims, and the host that reduces each row of the whole array,
  meet the same handful of operations: a sum or a maximum along axis 1 read at row r; a vector [n] recast as a
  column [n, 1]; a column [n, 1] broadcast along the rows of [n, m]; two columns laid side by side as [n, 2]; and,
  on the host, a column of [n, 2] cut out and recast as a vector [n]. Each is stated here once, at any extents, with
  indices written by their coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.RowOps

open Idealize.ShloMosaic Idealize.ShloMosaic.ValueIdx

variable {α : Type}

/-! ## The index of row r with column k put back -/

/-- Over row index r, the source index whose coordinate on the dropped axis 1 is k is (r, k). -/
theorem lift_row {n m : ℕ} (h : (⟨2, ![n, m]⟩ : Shape).Reduces [1] ⟨1, ![n]⟩) (r : Fin n)
    (k : Fin ((⟨2, ![n, m]⟩ : Shape).size 1)) : h.lift (ix1 r) k = ix2 r (⟨k.val, k.isLt⟩ : Fin m) := by
  funext c; apply Fin.ext
  fin_cases c <;> rfl

/-! ## A kernel's lane reductions along axis 1 -/

/-- A float sum along axis 1, at row r, is the sum of the row's entries. -/
theorem rowSum_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ) (r : Fin n) :
    multiReduction .add [1] ⟨1, ![n]⟩ src acc h hφ hacc (ix1 r) = ∑ k : Fin m, src (ix2 r k) := by
  refine (Ideal.multiReduction_add_single src acc h hφ hacc (ix1 r)).trans ?_
  exact Finset.sum_congr rfl fun k _ => congrArg src (lift_row h r k)

/-- A float maximum along axis 1, at row r, is the fold of max over the row's entries from the accumulator's value. -/
theorem rowMax_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.maximumf.neutral φ hφ) (r : Fin n) :
    multiReduction .maximumf [1] ⟨1, ![n]⟩ src acc h hφ hacc (ix1 r)
      = (Finset.univ : Finset (Fin m)).fold max (Ideal.ofBits φ acc) (fun k => src (ix2 r k)) := by
  refine (Ideal.multiReduction_maximumf_single src acc h hφ hacc (ix1 r)).trans ?_
  have hf : (src ∘ h.lift (ix1 r)) = fun k : Fin m => src (ix2 r k) := funext fun k => congrArg src (lift_row h r k)
  exact congrArg (fun f => Finset.fold max (Ideal.ofBits φ acc) f (Finset.univ : Finset (Fin m))) hf

/-! ## The host's reductions along axis 1 -/

/-- The host's maximum along axis 1, at row r, is the fold of max over the row's entries from the initial value. -/
theorem hostRowMax_apply {n m : ℕ} {φ : FTy} {u : Shape} (x : FVec Ideal ⟨2, ![n, m]⟩ φ) (init : u.Idx → Ideal φ)
    (h' : (⟨2, ![n, m]⟩ : Shape).ReducesTo [1] ⟨1, ![n]⟩) (h : (⟨2, ![n, m]⟩ : Shape).Reduces [1] ⟨1, ![n]⟩) (hu : 0 < u.numel) (r : Fin n) :
    Host.reduce FloatOps.maximumf x init h' hu (ix1 r)
      = (Finset.univ : Finset (Fin m)).fold max (init (Shape.Idx.first hu)) (fun k => x (ix2 r k)) := by
  refine (Host.reduce_eq_fold_single FloatOps.maximumf x init h' h hu (ix1 r)).trans ?_
  have hf : (x ∘ h.lift (ix1 r)) = fun k : Fin m => x (ix2 r k) := funext fun k => congrArg x (lift_row h r k)
  exact congrArg (fun f => Finset.fold max (init (Shape.Idx.first hu)) f (Finset.univ : Finset (Fin m))) hf

/-! ## Columns -/

/-- A vector [n] recast as a column [n, 1] reads, at (r, u), entry r. -/
theorem shapeCast_a_a1_apply {n : ℕ} (x : (⟨1, ![n]⟩ : Shape).Idx → α) (h : (⟨1, ![n]⟩ : Shape).ShapeCasts ⟨2, ![n, 1]⟩)
    (r : Fin n) (u : Fin 1) : shapeCast ⟨2, ![n, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column [n, 1] recast as a vector [n] reads, at r, the column at (r, 0). -/
theorem shapeCast_a1_a_apply {n : ℕ} (x : (⟨2, ![n, 1]⟩ : Shape).Idx → α) (h : (⟨2, ![n, 1]⟩ : Shape).ShapeCasts ⟨1, ![n]⟩)
    (r : Fin n) : shapeCast ⟨1, ![n]⟩ x h (ix1 r) = x (ix2 r (0 : Fin 1)) :=
  shapeCast_apply x h _ _ (by
    rw [Shape.rowMajor_val_two, Shape.rowMajor_val_one]
    show r.val * 1 + 0 = r.val
    rw [Nat.mul_one, Nat.add_zero])

/-- A column [n, 1] broadcast along the rows of [n, m] (m at least 2, n at least 2) reads, at (r, k), the column at (r, 0). -/
theorem broadcastTo_a1_ab_apply {n m : ℕ} (hn : n ≠ 1) (v : (⟨2, ![n, 1]⟩ : Shape).Idx → α)
    (h : (⟨2, ![n, 1]⟩ : Shape).Broadcasts ⟨2, ![n, m]⟩) (r : Fin n) (k : Fin m) :
    broadcastTo ⟨2, ![n, m]⟩ v h (ix2 r k) = v (ix2 r (0 : Fin 1)) := by
  refine broadcastTo_apply v h (ix2 r k) (ix2 r (0 : Fin 1)) fun ax => ?_
  match ax with
  | ⟨0, _⟩ =>
    show r.val = if n = 1 then 0 else r.val
    rw [if_neg hn]
  | ⟨1, _⟩ => rfl

/-- Two columns [n, 1] laid side by side as [n, 2] read, at (r, 0), the first column at (r, 0). -/
theorem concat_cols_left {n : ℕ} (x₁ x₂ : (⟨2, ![n, 1]⟩ : Shape).Idx → α)
    (h : Shape.Concatenates [(⟨2, ![n, 1]⟩ : Shape), ⟨2, ![n, 1]⟩] ⟨2, ![n, 2]⟩ 1) (r : Fin n) :
    concatenate ⟨2, ![n, 2]⟩ 1 [⟨⟨2, ![n, 1]⟩, x₁⟩, ⟨⟨2, ![n, 1]⟩, x₂⟩] h (ix2 r (0 : Fin 2)) = x₁ (ix2 r (0 : Fin 1)) :=
  concatenate_pair_apply_left 1 x₁ x₂ h (ix2 r (0 : Fin 2)) rfl (ix2 r (0 : Fin 1)) (fun b => by
    match b with
    | ⟨0, _⟩ => rfl
    | ⟨1, _⟩ => rfl)

/-- … and, at (r, 1), the second column at (r, 0). -/
theorem concat_cols_right {n : ℕ} (x₁ x₂ : (⟨2, ![n, 1]⟩ : Shape).Idx → α)
    (h : Shape.Concatenates [(⟨2, ![n, 1]⟩ : Shape), ⟨2, ![n, 1]⟩] ⟨2, ![n, 2]⟩ 1) (r : Fin n) :
    concatenate ⟨2, ![n, 2]⟩ 1 [⟨⟨2, ![n, 1]⟩, x₁⟩, ⟨⟨2, ![n, 1]⟩, x₂⟩] h (ix2 r (1 : Fin 2)) = x₂ (ix2 r (0 : Fin 1)) :=
  concatenate_pair_apply_right 1 x₁ x₂ h (ix2 r (1 : Fin 2)) rfl rfl (ix2 r (0 : Fin 1)) (fun b hb => by
    match b with
    | ⟨0, _⟩ => rfl
    | ⟨1, _⟩ => exact absurd rfl hb) rfl

/-- Column c of an [n, 2] array, cut out as [n, 1], reads at (r, 0) the array at (r, c). -/
theorem slice_col_apply {n : ℕ} (c : Fin 2) (X : (⟨2, ![n, 2]⟩ : Shape).Idx → α)
    (h : (⟨2, ![n, 2]⟩ : Shape).Slices ![0, c.val] ⟨2, ![n, 1]⟩) (r : Fin n) :
    extractStridedSlice ⟨2, ![n, 1]⟩ ![0, c.val] X h (ix2 r (0 : Fin 1)) = X (ix2 r c) :=
  slice2_axis1_apply c.val X h r (0 : Fin 1) c rfl

end Cert.RowOps

end
-- ==== Proof.LibPlainMatmul.lean ====
/-
  A plain matrix product [M, K] x [K, N] into the zero accumulator, read at an entry, over the extended reals.

  With dimension numbers "contract the left operand's axis 1 with the right operand's axis 0, no batch axes"
  (`DotDims.plain M K N`) the product's entry (r, c) is the sum over k of a (r, k) * b (k, c): the left operand is read at
  the output's row and the contraction coordinate, the right one at the contraction coordinate and the output's column.
  Stated at any extents, with indices written by their coordinates.
-/
import Idealize.ShloMosaic.Lib.ValueIdx
import Idealize.ShloMosaic.PureOps.Ideal.Laws

noncomputable section

namespace Cert.PlainMatmul

open Idealize.ShloMosaic Idealize.ShloMosaic.ValueIdx

variable {M K N : ℕ}

/-- The left operand's row coordinate is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (r, c) of the product into the zero accumulator is the sum over k of a (r, k) * b (k, c). -/
theorem apply (prec : Option ContractPrecision) {φ₁ φ₂ : FTy} (a : FVec Ideal ⟨2, ![M, K]⟩ φ₁) (b : FVec Ideal ⟨2, ![K, N]⟩ φ₂)
    (r : Fin M) (c : Fin N) :
    FloatOps.matmul (DotDims.plain M K N) prec a b (constant ⟨2, ![M, N]⟩ .f32 0x00000000#32) (ix2 r c)
      = ∑ k : Fin K, a (ix2 r k) * b (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun x => Fin.ext (by
      match x with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun x => Fin.ext (by
      match x with
      | ⟨0, _⟩ => exact (rhs_row _ _).trans hk
      | ⟨1, _⟩ => exact rhs_col _ _)
  rw [el, er]

end Cert.PlainMatmul

end
-- ==== Proof.KernelRow.lean ====
/-
  What the kernel body stores, one row at a time.

  At a grid point the body holds a [512, 64] tile of raw query rows, the [2048, 64] raw key rows and value rows of one
  batch entry and head, the three weight matrices and biases, and a [512, 2048] tile of the keep mask widened to 32-bit
  words. It projects the three inputs (x W + b), multiplies the projected queries with the transposed projected keys,
  scales by 1/8, takes each row's maximum and the row sum of the shifted exponentials, divides, scales by the named
  reciprocal of the keep probability where the mask word is not zero and writes zero elsewhere, and multiplies with the
  projected values. Read at row r and feature e, the stored tile is the head's result row (`Cert.Attn.head`) for query
  row r of the tile: every step below is one of the body's operations read at an index.
-/
import proofs.«421678_j39848706572886_3_alg».proof.Proof.Gen.KernelIdeal.Skeleton
import proofs.«421678_j39848706572886_3_alg».proof.Proof.HeadSpec
import proofs.«421678_j39848706572886_3_alg».proof.Proof.LibRowOps
import proofs.«421678_j39848706572886_3_alg».proof.Proof.LibPlainMatmul
import Idealize.ShloMosaic.Lib.ValueLayout
import Idealize.ShloMosaic.Lib.Pipeline.Value

noncomputable section

namespace Cert.KernelIdeal.Row

open Cert.KernelIdeal Cert.KernelIdeal.Gen Idealize.ShloMosaic Idealize.ShloMosaic.ValueIdx Cert.Attn

/-! ## Two unit axes dropped or added by a shape cast -/

/-- A [1, 1, a, b] array cast to [a, b] reads, at (i, j), the operand at (0, 0, i, j). -/
theorem cast_11ab_ab {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An [a, b] array cast to [1, 1, a, b] reads, at (0, 0, i, j), the operand at (i, j). -/
theorem cast_ab_11ab {α : Type} {a b : ℕ} (x : (⟨2, ![a, b]⟩ : Shape).Idx → α)
    (h : (⟨2, ![a, b]⟩ : Shape).ShapeCasts ⟨4, ![1, 1, a, b]⟩) (i : Fin a) (j : Fin b) :
    shapeCast ⟨4, ![1, 1, a, b]⟩ x h (ix4 (0 : Fin 1) (0 : Fin 1) i j) = x (ix2 i j) :=
  shapeCast_apply x h _ _ (by
    rw [Shape.rowMajor_val_four, Shape.rowMajor_val_two]
    show i.val * b + j.val = ((0 * 1 + 0) * a + i.val) * b + j.val
    simp only [Nat.zero_mul, Nat.zero_add])

/-! ## A linear layer on a tile of rows -/

/-- A tile [1, 1, n, 64] of raw rows times a [64, 64] weight matrix plus the bias broadcast over the rows, at (t, f):
    the linear layer of row t at feature f. -/
theorem proj_apply {n : ℕ} (prec : Option ContractPrecision) (x : FVec Ideal ⟨4, ![1, 1, n, 64]⟩ .f32)
    (hc : (⟨4, ![1, 1, n, 64]⟩ : Shape).ShapeCasts ⟨2, ![n, 64]⟩) (W : FVec Ideal ⟨2, ![64, 64]⟩ .f32)
    (b : FVec Ideal ⟨1, ![64]⟩ .f32) (hb : (⟨1, ![64]⟩ : Shape).ShapeCasts ⟨2, ![1, 64]⟩)
    (hbb : (⟨2, ![1, 64]⟩ : Shape).Broadcasts ⟨2, ![n, 64]⟩) (t : Fin n) (f : Fin 64) :
    addf (matmul (DotDims.plain n 64 64) prec (shapeCast ⟨2, ![n, 64]⟩ x hc) W (constant ⟨2, ![n, 64]⟩ .f32 0x00000000#32))
        (broadcastTo ⟨2, ![n, 64]⟩ (shapeCast ⟨2, ![1, 64]⟩ b hb) hbb) (ix2 t f)
      = lin W b (fun e => x (ix4 (0 : Fin 1) (0 : Fin 1) t e)) f := by
  show FloatOps.matmul (DotDims.plain n 64 64) prec (shapeCast ⟨2, ![n, 64]⟩ x hc) W (constant ⟨2, ![n, 64]⟩ .f32 0x00000000#32) (ix2 t f)
      + broadcastTo ⟨2, ![n, 64]⟩ (shapeCast ⟨2, ![1, 64]⟩ b hb) hbb (ix2 t f) = _
  rw [Cert.PlainMatmul.apply, broadcastTo_1b_ab_apply, shapeCast_a_1a_apply]
  unfold lin
  refine congrArg (· + b (ix1 f)) (Finset.sum_congr rfl fun e _ => ?_)
  rw [cast_11ab_ab]

/-- The projected values: the body's value projection at (t, e) is the linear layer of raw value row t. -/
theorem pay2_apply (v4 : FVec Ideal S1x1x2048x64 .f32) (v18 : FVec Ideal S64x64 .f32) (v20 : FVec Ideal S64 .f32)
    (t : Fin 2048) (e : Fin 64) :
    k0_pay2 (F := Ideal) v4 v18 v20 (ix2 t e) = lin v18 v20 (fun e' => v4 (ix4 (0 : Fin 1) (0 : Fin 1) t e')) e :=
  proj_apply (some .fp32) v4 shapeCasts_S1x1x2048x64_S2048x64 v18 v20 shapeCasts_S64_S1x64 broadcasts_S1x64_S2048x64 t e

/-! ## Scores and their row maximum -/

/-- The scaled scores at (r, t): the projected query row r against the projected key row t, times the word of 1/8. -/
theorem pay3_apply (v0 : FVec Ideal S1x1x512x64 .f32) (v2 : FVec Ideal S1x1x2048x64 .f32) (v6 : FVec Ideal S64x64 .f32)
    (v8 : FVec Ideal S64 .f32) (v12 : FVec Ideal S64x64 .f32) (v14 : FVec Ideal S64 .f32) (r : Fin 512) (t : Fin 2048) :
    k0_pay3 (F := Ideal) v0 v2 v6 v8 v12 v14 (ix2 r t)
      = score v6 v8 v12 v14 (fun e => v0 (ix4 (0 : Fin 1) (0 : Fin 1) r e))
          (fun t e => v2 (ix4 (0 : Fin 1) (0 : Fin 1) t e)) t := by
  unfold k0_pay3
  show FloatOps.matmul (DotDims.plain 512 64 2048) (some .fp32) _ _ (constant S512x2048 .f32 0x00000000#32) (ix2 r t)
      * Ideal.ofBits .f32 0x3E000000#32 = _
  rw [Cert.PlainMatmul.apply, ofBits_eighth]
  unfold score
  refine congrArg (· * eighth) (Finset.sum_congr rfl fun f _ => ?_)
  rw [transpose_ix2_apply]
  exact congrArg₂ (· * ·)
    (proj_apply (some .fp32) v0 shapeCasts_S1x1x512x64_S512x64 v6 v8 shapeCasts_S64_S1x64 broadcasts_S1x64_S512x64 r f)
    (proj_apply (some .fp32) v2 shapeCasts_S1x1x2048x64_S2048x64 v12 v14 shapeCasts_S64_S1x64 broadcasts_S1x64_S2048x64 t f)

/-- The keepdims row maximum at (r, 0): the fold of max, from minus infinity, over row r of the scaled scores. -/
theorem pay4_apply (v0 : FVec Ideal S1x1x512x64 .f32) (v2 : FVec Ideal S1x1x2048x64 .f32) (v6 : FVec Ideal S64x64 .f32)
    (v8 : FVec Ideal S64 .f32) (v12 : FVec Ideal S64x64 .f32) (v14 : FVec Ideal S64 .f32) (r : Fin 512) :
    k0_pay4 (F := Ideal) v0 v2 v6 v8 v12 v14 (ix2 r (0 : Fin 1))
      = rowMax (fun t => k0_pay3 (F := Ideal) v0 v2 v6 v8 v12 v14 (ix2 r t)) := by
  unfold k0_pay4
  refine (Cert.RowOps.shapeCast_a_a1_apply _ shapeCasts_S512_S512x1 r (0 : Fin 1)).trans ?_
  exact Cert.RowOps.rowMax_apply (k0_pay3 (F := Ideal) v0 v2 v6 v8 v12 v14) 0xFF800000#32 reduces_S512x2048_S512 (.inl rfl) rfl r

/-! ## The stored tile -/

/-- The stored tile at (0, 0, r, e), for ANY projected values, scaled scores and keepdims column: the sum over key
    positions t of the dropped-out quotient exp (score - column) / (row sum of those exponentials), times the value
    entry (t, e). The mask bit is "the 32-bit mask word is not zero". -/
theorem pay1_apply (v23 : FVec Ideal S2048x64 .f32) (v27 : FVec Ideal S512x2048 .f32) (v29 : FVec Ideal S512x1 .f32)
    (v37 : Vec Ideal S1x1x512x2048 .i32) (r : Fin 512) (e : Fin 64) :
    k0_pay1 (F := Ideal) v23 v27 v29 v37 (ix4 (0 : Fin 1) (0 : Fin 1) r e)
      = ∑ t : Fin 2048, dropout (IntOp.cmpi .ne (v37 (ix4 (0 : Fin 1) (0 : Fin 1) r t)) 0#32)
          (Ideal.div (Ideal.exp (v27 (ix2 r t) - v29 (ix2 r (0 : Fin 1))))
            (∑ u : Fin 2048, Ideal.exp (v27 (ix2 r u) - v29 (ix2 r (0 : Fin 1))))) * v23 (ix2 t e) := by
  unfold k0_pay1
  refine (cast_ab_11ab _ shapeCasts_S512x64_S1x1x512x64 r e).trans ?_
  refine (Cert.PlainMatmul.apply (M := 512) (K := 2048) (N := 64) (some .fp32) _ v23 r e).trans ?_
  refine Finset.sum_congr rfl fun t _ => congrArg (· * v23 (ix2 t e)) ?_
  have hmask : shapeCast S512x2048 v37 shapeCasts_S1x1x512x2048_S512x2048 (ix2 r t) = v37 (ix4 (0 : Fin 1) (0 : Fin 1) r t) :=
    cast_11ab_ab v37 _ r t
  have hmax : ∀ u : Fin 2048, broadcastTo S512x2048 v29 broadcasts_S512x1_S512x2048 (ix2 r u) = v29 (ix2 r (0 : Fin 1)) :=
    fun u => Cert.RowOps.broadcastTo_a1_ab_apply (by decide) v29 _ r u
  have hsum : broadcastTo S512x2048 (shapeCast S512x1 (multiReduction .add [1] S512
        (exp (subf v27 (broadcastTo S512x2048 v29 broadcasts_S512x1_S512x2048))) 0x00000000#32 reduces_S512x2048_S512 (.inl rfl) rfl)
        shapeCasts_S512_S512x1) broadcasts_S512x1_S512x2048 (ix2 r t)
      = ∑ u : Fin 2048, Ideal.exp (v27 (ix2 r u) - v29 (ix2 r (0 : Fin 1))) :=
    (Cert.RowOps.broadcastTo_a1_ab_apply (by decide) _ _ r t).trans
      ((Cert.RowOps.shapeCast_a_a1_apply _ _ r (0 : Fin 1)).trans
        ((Cert.RowOps.rowSum_apply _ 0x00000000#32 reduces_S512x2048_S512 (.inl rfl) rfl r).trans
          (Finset.sum_congr rfl fun u _ => by
            show Ideal.exp (v27 (ix2 r u) - broadcastTo S512x2048 v29 broadcasts_S512x1_S512x2048 (ix2 r u)) = _
            rw [hmax u])))
  have hnamed : Named.named (F := Ideal) κ "inv_keep_prob" (φ := .f32) 0x3F8E38E4#32 = invKeep :=
    IdealRules.named_const.ideal_named_scalar _ _ _ _ rfl
  show Scalar.select (IntOp.cmpi .ne (shapeCast S512x2048 v37 shapeCasts_S1x1x512x2048_S512x2048 (ix2 r t)) 0#32)
      (Ideal.div (Ideal.exp (v27 (ix2 r t) - broadcastTo S512x2048 v29 broadcasts_S512x1_S512x2048 (ix2 r t)))
          (broadcastTo S512x2048 (shapeCast S512x1 (multiReduction .add [1] S512
            (exp (subf v27 (broadcastTo S512x2048 v29 broadcasts_S512x1_S512x2048))) 0x00000000#32 reduces_S512x2048_S512 (.inl rfl) rfl)
            shapeCasts_S512_S512x1) broadcasts_S512x1_S512x2048 (ix2 r t))
        * Named.named (F := Ideal) κ "inv_keep_prob" (φ := .f32) 0x3F8E38E4#32)
      (Ideal.ofBits .f32 0x00000000#32) = _
  rw [hmask, hmax t, hsum, hnamed]
  rfl

/-- The tile the body stores, at (0, 0, r, e), is the head's result row for query row r of the query tile, the key and
    value rows of the two [2048, 64] tiles and row r of the mask tile, at feature e. -/
theorem block_row (x0 : FVec Ideal S1x1x512x64 .f32) (x1 x2 : FVec Ideal S1x1x2048x64 .f32) (x3 : FVec Ideal S64x64 .f32)
    (x4 : FVec Ideal S64 .f32) (x5 : FVec Ideal S64x64 .f32) (x6 : FVec Ideal S64 .f32) (x7 : FVec Ideal S64x64 .f32)
    (x8 : FVec Ideal S64 .f32) (x9 : Vec Ideal S1x1x512x2048 .i32) (r : Fin 512) (e : Fin 64) :
    k0_pay1 (F := Ideal) (k0_pay2 x2 x7 x8) (k0_pay3 x0 x1 x3 x4 x5 x6) (k0_pay4 x0 x1 x3 x4 x5 x6) x9
        (ix4 (0 : Fin 1) (0 : Fin 1) r e)
      = head x3 x4 x5 x6 x7 x8 (fun e' => x0 (ix4 (0 : Fin 1) (0 : Fin 1) r e'))
          (fun t e' => x1 (ix4 (0 : Fin 1) (0 : Fin 1) t e')) (fun t e' => x2 (ix4 (0 : Fin 1) (0 : Fin 1) t e'))
          (fun t => IntOp.cmpi .ne (x9 (ix4 (0 : Fin 1) (0 : Fin 1) r t)) 0#32) e := by
  rw [pay1_apply]
  unfold head
  refine Finset.sum_congr rfl fun t _ => ?_
  rw [pay2_apply, pay4_apply]
  simp only [pay3_apply]
  rfl

end Cert.KernelIdeal.Row

end
-- ==== Proof.KernelValue.lean ====
/-
  The kernel's result array is `Cert.Attn.G` of the raw inputs.

  The grid has 4 * 8 * 4 points (batch entry b, head h, query tile q). Before the region the host transposes the three
  raw [4, 2048, 8, 64] inputs to [4, 8, 2048, 64] and widens the boolean mask to 32-bit words. At point (b, h, q) the
  query window holds rows 512 q .. 512 q + 511 of (b, h), the key and value windows hold all 2048 rows of (b, h), the
  weight and bias windows hold their whole arrays, the mask window holds rows 512 q .. 512 q + 511 of (b, h), and the
  output window writes back rows 512 q .. 512 q + 511 of (b, h). So the tile the body stores, which is the head's
  result row for each of its 512 query rows (`Cert.KernelIdeal.Row.block_row`), is exactly block (b, h, q) of G; a
  mask word is not zero exactly where the mask bit is set; and the 128 blocks tile the [4, 8, 2048, 64] array.
-/
import proofs.«421678_j39848706572886_3_alg».proof.Proof.Gen.KernelIdeal.Value
import proofs.«421678_j39848706572886_3_alg».proof.Proof.KernelRow
import Idealize.ShloMosaic.Lib.StableHlo.Run
import Idealize.ShloMosaic.Lib.Tactic

set_option maxRecDepth 16384

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx Cert.Attn
open Idealize.ShloMosaic.Pipeline (Dat)

variable (m : (ℓ : Loc nD τ sig) → Buf (Elt Ideal) ℓ) (ρ : Dev nD → PrngReg)

/-! ## The index maps over the grid -/

/-- Where each window's block sits, relative to the output window's block (b, h, q, 0): the query and mask windows at
    the same block, the key and value windows at block (b, h, 0, 0), the weights and biases at block 0; and the output's
    block indices stay in their ranges. -/
theorem idx_facts : ∀ t : Fin cfg0.N,
    (win0_0.index t (0 : Fin 4) = win0_10.index t (0 : Fin 4) ∧ win0_0.index t (1 : Fin 4) = win0_10.index t (1 : Fin 4)
      ∧ win0_0.index t (2 : Fin 4) = win0_10.index t (2 : Fin 4) ∧ win0_0.index t (3 : Fin 4) = 0)
    ∧ (win0_1.index t (0 : Fin 4) = win0_10.index t (0 : Fin 4) ∧ win0_1.index t (1 : Fin 4) = win0_10.index t (1 : Fin 4)
      ∧ win0_1.index t (2 : Fin 4) = 0 ∧ win0_1.index t (3 : Fin 4) = 0)
    ∧ (win0_2.index t (0 : Fin 4) = win0_10.index t (0 : Fin 4) ∧ win0_2.index t (1 : Fin 4) = win0_10.index t (1 : Fin 4)
      ∧ win0_2.index t (2 : Fin 4) = 0 ∧ win0_2.index t (3 : Fin 4) = 0)
    ∧ (win0_3.index t (0 : Fin 2) = 0 ∧ win0_3.index t (1 : Fin 2) = 0 ∧ win0_4.index t (0 : Fin 1) = 0
      ∧ win0_5.index t (0 : Fin 2) = 0 ∧ win0_5.index t (1 : Fin 2) = 0 ∧ win0_6.index t (0 : Fin 1) = 0
      ∧ win0_7.index t (0 : Fin 2) = 0 ∧ win0_7.index t (1 : Fin 2) = 0 ∧ win0_8.index t (0 : Fin 1) = 0)
    ∧ (win0_9.index t (0 : Fin 4) = win0_10.index t (0 : Fin 4) ∧ win0_9.index t (1 : Fin 4) = win0_10.index t (1 : Fin 4)
      ∧ win0_9.index t (2 : Fin 4) = win0_10.index t (2 : Fin 4) ∧ win0_9.index t (3 : Fin 4) = 0)
    ∧ (win0_10.index t (0 : Fin 4) ≤ 3 ∧ win0_10.index t (1 : Fin 4) ≤ 7 ∧ win0_10.index t (2 : Fin 4) ≤ 3
      ∧ win0_10.index t (3 : Fin 4) = 0) :=
  (by decide +kernel : ∀ t : Fin grid0.N, _)

/-- Every block (b, h, q, 0) of the result array is SOME point's. -/
theorem idx_onto : ∀ (b : Fin 4) (h : Fin 8) (q : Fin 4), ∃ t : Fin cfg0.N, win0_10.index t = ![b.val, h.val, q.val, 0] :=
  (by decide +kernel : ∀ (b : Fin 4) (h : Fin 8) (q : Fin 4), ∃ t : Fin grid0.N, win0_10.index t = ![b.val, h.val, q.val, 0])

/-! ## What the region finds in the buffers the host wrote -/

/-- The transposed query input. -/
theorem V_v0 (c : Dev nD) : (V m c main_v0 : S4x8x2048x64.Idx → EReal)
    = transpose S4x8x2048x64 [0, 2, 1, 3] (m ((c : Thread nD τ).loc main_arg0)) transposes_S4x2048x8x64_S4x8x2048x64_0_2_1_3 := by
  dsimp only [Gen.V, Gen.hostOps0]; after_results

/-- The transposed key input. -/
theorem V_v1 (c : Dev nD) : (V m c main_v1 : S4x8x2048x64.Idx → EReal)
    = transpose S4x8x2048x64 [0, 2, 1, 3] (m ((c : Thread nD τ).loc main_arg1)) transposes_S4x2048x8x64_S4x8x2048x64_0_2_1_3 := by
  dsimp only [Gen.V, Gen.hostOps0]; after_results

/-- The transposed value input. -/
theorem V_v2 (c : Dev nD) : (V m c main_v2 : S4x8x2048x64.Idx → EReal)
    = transpose S4x8x2048x64 [0, 2, 1, 3] (m ((c : Thread nD τ).loc main_arg2)) transposes_S4x2048x8x64_S4x8x2048x64_0_2_1_3 := by
  dsimp only [Gen.V, Gen.hostOps0]; after_results

/-- The mask widened to 32-bit words. -/
theorem V_v3 (c : Dev nD) : (V m c main_v3 : S4x8x2048x2048.Idx → BitVec 32)
    = extui 32 (m ((c : Thread nD τ).loc main_arg9)) natLt_1_32 := by
  dsimp only [Gen.V, Gen.hostOps0]; after_results

/-- A transposed input at (b, h, s, e) is the raw input at (b, s, h, e). -/
theorem transposed_apply (x : S4x2048x8x64.Idx → EReal) (b : Fin 4) (h : Fin 8) (s : Fin 2048) (e : Fin 64) :
    transpose S4x8x2048x64 [0, 2, 1, 3] x transposes_S4x2048x8x64_S4x8x2048x64_0_2_1_3 (ix4 b h s e) = x (ix4 b s h e) :=
  transpose_apply _ x _ _ _ fun a => match a with | ⟨0, _⟩ => rfl | ⟨1, _⟩ => rfl | ⟨2, _⟩ => rfl | ⟨3, _⟩ => rfl

/-- A one-bit word widened to 32 bits is not zero exactly when the bit is set. -/
theorem ne_zero_widened (x : BitVec 1) : IntOp.cmpi .ne (x.setWidth 32) 0#32 = x := by
  revert x; decide

/-! ## The input blocks at a point, read at coordinates -/

/-- The query tile at point t, row r, feature e: the transposed query input at (b, h, 512 q + r, e). -/
theorem qblk_apply (c : Dev nD) (t : Fin cfg0.N) (r : Fin 512) (e : Fin 64) (k : S4x8x2048x64.Idx)
    (h0 : (k 0).val = win0_0.index t (0 : Fin 4)) (h1 : (k 1).val = win0_0.index t (1 : Fin 4))
    (h2 : (k 2).val = win0_0.index t (2 : Fin 4) * 512 + r.val) (h3 : (k 3).val = win0_0.index t (3 : Fin 4) * 64 + e.val) :
    (iblk m c 0 t : FVec Ideal S1x1x512x64 .f32) (ix4 (0 : Fin 1) (0 : Fin 1) r e) = (V m c main_v0 : S4x8x2048x64.Idx → EReal) k := by
  unfold iblk
  rw [View.read_apply]
  show (V m c main_v0 : S4x8x2048x64.Idx → EReal) _ = V m c main_v0 k
  congr 1
  funext a; apply Fin.ext
  match a with
  | ⟨0, _⟩ => show win0_0.index t (0 : Fin 4) * 1 + 1 * 0 = (k 0).val; omega
  | ⟨1, _⟩ => show win0_0.index t (1 : Fin 4) * 1 + 1 * 0 = (k 1).val; omega
  | ⟨2, _⟩ => show win0_0.index t (2 : Fin 4) * 512 + 1 * r.val = (k 2).val; omega
  | ⟨3, _⟩ => show win0_0.index t (3 : Fin 4) * 64 + 1 * e.val = (k 3).val; omega

/-- The key rows at point t, row u, feature e: the transposed key input at (b, h, u, e). -/
theorem kblk_apply (c : Dev nD) (t : Fin cfg0.N) (u : Fin 2048) (e : Fin 64) (k : S4x8x2048x64.Idx)
    (h0 : (k 0).val = win0_1.index t (0 : Fin 4)) (h1 : (k 1).val = win0_1.index t (1 : Fin 4))
    (h2 : (k 2).val = win0_1.index t (2 : Fin 4) * 2048 + u.val) (h3 : (k 3).val = win0_1.index t (3 : Fin 4) * 64 + e.val) :
    (iblk m c 1 t : FVec Ideal S1x1x2048x64 .f32) (ix4 (0 : Fin 1) (0 : Fin 1) u e) = (V m c main_v1 : S4x8x2048x64.Idx → EReal) k := by
  unfold iblk
  rw [View.read_apply]
  show (V m c main_v1 : S4x8x2048x64.Idx → EReal) _ = V m c main_v1 k
  congr 1
  funext a; apply Fin.ext
  match a with
  | ⟨0, _⟩ => show win0_1.index t (0 : Fin 4) * 1 + 1 * 0 = (k 0).val; omega
  | ⟨1, _⟩ => show win0_1.index t (1 : Fin 4) * 1 + 1 * 0 = (k 1).val; omega
  | ⟨2, _⟩ => show win0_1.index t (2 : Fin 4) * 2048 + 1 * u.val = (k 2).val; omega
  | ⟨3, _⟩ => show win0_1.index t (3 : Fin 4) * 64 + 1 * e.val = (k 3).val; omega

/-- The value rows at point t, row u, feature e: the transposed value input at (b, h, u, e). -/
theorem vblk_apply (c : Dev nD) (t : Fin cfg0.N) (u : Fin 2048) (e : Fin 64) (k : S4x8x2048x64.Idx)
    (h0 : (k 0).val = win0_2.index t (0 : Fin 4)) (h1 : (k 1).val = win0_2.index t (1 : Fin 4))
    (h2 : (k 2).val = win0_2.index t (2 : Fin 4) * 2048 + u.val) (h3 : (k 3).val = win0_2.index t (3 : Fin 4) * 64 + e.val) :
    (iblk m c 2 t : FVec Ideal S1x1x2048x64 .f32) (ix4 (0 : Fin 1) (0 : Fin 1) u e) = (V m c main_v2 : S4x8x2048x64.Idx → EReal) k := by
  unfold iblk
  rw [View.read_apply]
  show (V m c main_v2 : S4x8x2048x64.Idx → EReal) _ = V m c main_v2 k
  congr 1
  funext a; apply Fin.ext
  match a with
  | ⟨0, _⟩ => show win0_2.index t (0 : Fin 4) * 1 + 1 * 0 = (k 0).val; omega
  | ⟨1, _⟩ => show win0_2.index t (1 : Fin 4) * 1 + 1 * 0 = (k 1).val; omega
  | ⟨2, _⟩ => show win0_2.index t (2 : Fin 4) * 2048 + 1 * u.val = (k 2).val; omega
  | ⟨3, _⟩ => show win0_2.index t (3 : Fin 4) * 64 + 1 * e.val = (k 3).val; omega

/-- The mask tile at point t, row r, key position u: the widened mask at (b, h, 512 q + r, u). -/
theorem mblk_apply (c : Dev nD) (t : Fin cfg0.N) (r : Fin 512) (u : Fin 2048) (k : S4x8x2048x2048.Idx)
    (h0 : (k 0).val = win0_9.index t (0 : Fin 4)) (h1 : (k 1).val = win0_9.index t (1 : Fin 4))
    (h2 : (k 2).val = win0_9.index t (2 : Fin 4) * 512 + r.val) (h3 : (k 3).val = win0_9.index t (3 : Fin 4) * 2048 + u.val) :
    (iblk m c 9 t : Vec Ideal S1x1x512x2048 .i32) (ix4 (0 : Fin 1) (0 : Fin 1) r u) = (V m c main_v3 : S4x8x2048x2048.Idx → BitVec 32) k := by
  unfold iblk
  rw [View.read_apply]
  show (V m c main_v3 : S4x8x2048x2048.Idx → BitVec 32) _ = V m c main_v3 k
  congr 1
  funext a; apply Fin.ext
  match a with
  | ⟨0, _⟩ => show win0_9.index t (0 : Fin 4) * 1 + 1 * 0 = (k 0).val; omega
  | ⟨1, _⟩ => show win0_9.index t (1 : Fin 4) * 1 + 1 * 0 = (k 1).val; omega
  | ⟨2, _⟩ => show win0_9.index t (2 : Fin 4) * 512 + 1 * r.val = (k 2).val; omega
  | ⟨3, _⟩ => show win0_9.index t (3 : Fin 4) * 2048 + 1 * u.val = (k 3).val; omega

/-! ## The weight and bias windows -/

/-- Reading a [64, 64] array through a block of the array's own size whose two block indices are zero reads the array
    itself: the block's coordinate "index * 64 + 1 * coordinate" is the coordinate. -/
theorem read_whole_mat (A : S64x64.Idx → EReal) (k : S64x64.Idx → S64x64.Idx) (i0 i1 : ℕ) (h0 : i0 = 0) (h1 : i1 = 0)
    (hk0 : ∀ y, (k y 0).val = i0 * 64 + 1 * (y 0).val) (hk1 : ∀ y, (k y 1).val = i1 * 64 + 1 * (y 1).val) :
    (fun y => A (k y)) = A :=
  funext fun y => congrArg A (funext fun a => Fin.ext (by
    match a with
    | ⟨0, _⟩ => show (k y 0).val = (y 0).val; rw [hk0 y, h0]; omega
    | ⟨1, _⟩ => show (k y 1).val = (y 1).val; rw [hk1 y, h1]; omega))

/-- The same for a [64] array and a block of its own size at block index zero. -/
theorem read_whole_vec (A : S64.Idx → EReal) (k : S64.Idx → S64.Idx) (i0 : ℕ) (h0 : i0 = 0)
    (hk0 : ∀ y, (k y 0).val = i0 * 64 + 1 * (y 0).val) : (fun y => A (k y)) = A :=
  funext fun y => congrArg A (funext fun a => Fin.ext (by
    match a with
    | ⟨0, _⟩ => show (k y 0).val = (y 0).val; rw [hk0 y, h0]; omega))

/-- The query weight window's block is the whole query weight matrix, at every point. -/
theorem wblk3 (c : Dev nD) (t : Fin cfg0.N) : (iblk m c 3 t : FVec Ideal S64x64 .f32) = m ((c : Thread nD τ).loc main_arg3) :=
  (read_whole_mat (V m c main_arg3) ((cfg0.win 3).blk t).view.emb (win0_3.index t (0 : Fin 2)) (win0_3.index t (1 : Fin 2))
    (idx_facts t).2.2.2.1.1 (idx_facts t).2.2.2.1.2.1 (fun _ => rfl) (fun _ => rfl)).trans (V_main_arg3 m c)

/-- The query bias window's block is the whole query bias, at every point. -/
theorem wblk4 (c : Dev nD) (t : Fin cfg0.N) : (iblk m c 4 t : FVec Ideal S64 .f32) = m ((c : Thread nD τ).loc main_arg4) :=
  (read_whole_vec (V m c main_arg4) ((cfg0.win 4).blk t).view.emb (win0_4.index t (0 : Fin 1))
    (idx_facts t).2.2.2.1.2.2.1 (fun _ => rfl)).trans (V_main_arg4 m c)

/-- The key weight window's block is the whole key weight matrix, at every point. -/
theorem wblk5 (c : Dev nD) (t : Fin cfg0.N) : (iblk m c 5 t : FVec Ideal S64x64 .f32) = m ((c : Thread nD τ).loc main_arg5) :=
  (read_whole_mat (V m c main_arg5) ((cfg0.win 5).blk t).view.emb (win0_5.index t (0 : Fin 2)) (win0_5.index t (1 : Fin 2))
    (idx_facts t).2.2.2.1.2.2.2.1 (idx_facts t).2.2.2.1.2.2.2.2.1 (fun _ => rfl) (fun _ => rfl)).trans (V_main_arg5 m c)

/-- The key bias window's block is the whole key bias, at every point. -/
theorem wblk6 (c : Dev nD) (t : Fin cfg0.N) : (iblk m c 6 t : FVec Ideal S64 .f32) = m ((c : Thread nD τ).loc main_arg6) :=
  (read_whole_vec (V m c main_arg6) ((cfg0.win 6).blk t).view.emb (win0_6.index t (0 : Fin 1))
    (idx_facts t).2.2.2.1.2.2.2.2.2.1 (fun _ => rfl)).trans (V_main_arg6 m c)

/-- The value weight window's block is the whole value weight matrix, at every point. -/
theorem wblk7 (c : Dev nD) (t : Fin cfg0.N) : (iblk m c 7 t : FVec Ideal S64x64 .f32) = m ((c : Thread nD τ).loc main_arg7) :=
  (read_whole_mat (V m c main_arg7) ((cfg0.win 7).blk t).view.emb (win0_7.index t (0 : Fin 2)) (win0_7.index t (1 : Fin 2))
    (idx_facts t).2.2.2.1.2.2.2.2.2.2.1 (idx_facts t).2.2.2.1.2.2.2.2.2.2.2.1 (fun _ => rfl) (fun _ => rfl)).trans (V_main_arg7 m c)

/-- The value bias window's block is the whole value bias, at every point. -/
theorem wblk8 (c : Dev nD) (t : Fin cfg0.N) : (iblk m c 8 t : FVec Ideal S64 .f32) = m ((c : Thread nD τ).loc main_arg8) :=
  (read_whole_vec (V m c main_arg8) ((cfg0.win 8).blk t).view.emb (win0_8.index t (0 : Fin 1))
    (idx_facts t).2.2.2.1.2.2.2.2.2.2.2.2 (fun _ => rfl)).trans (V_main_arg8 m c)

/-! ## What a point writes back -/

theorem hz4 : (![0, 0, 0, 0] : Fin 4 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The result array: G of the raw inputs as launched. -/
def Gfin (c : Dev nD) : S4x8x2048x64.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

/-- The head's row depends on its rows, mask row and feature only through their values. -/
theorem head_congr {Wq : Mat64} {bq : Vec64} {Wk : Mat64} {bk : Vec64} {Wv : Mat64} {bv : Vec64} {q q' : Fin 64 → EReal}
    {k k' v v' : Fin 2048 → Fin 64 → EReal} {keep keep' : Fin 2048 → BitVec 1} {e e' : Fin 64}
    (hq : ∀ f, q f = q' f) (hk : ∀ u f, k u f = k' u f) (hv : ∀ u f, v u f = v' u f) (hm : ∀ u, keep u = keep' u) (he : e = e') :
    head Wq bq Wk bk Wv bv q k v keep e = head Wq bq Wk bk Wv bv q' k' v' keep' e' := by
  obtain rfl : q = q' := funext hq
  obtain rfl : k = k' := funext fun u => funext (hk u)
  obtain rfl : v = v' := funext fun u => funext (hv u)
  obtain rfl : keep = keep' := funext hm
  subst he; rfl

/-- The tile the body stores at point t, at an index y of the tile, is G at the array index y sits at in block t. -/
theorem point_row (c : Dev nD) (t : Fin cfg0.N) (y : S1x1x512x64.Idx) :
    k0_pay1 (F := Ideal) (k0_pay2 (iblk m c 2 t) (iblk m c 7 t) (iblk m c 8 t))
        (k0_pay3 (iblk m c 0 t) (iblk m c 1 t) (iblk m c 3 t) (iblk m c 4 t) (iblk m c 5 t) (iblk m c 6 t))
        (k0_pay4 (iblk m c 0 t) (iblk m c 1 t) (iblk m c 3 t) (iblk m c 4 t) (iblk m c 5 t) (iblk m c 6 t)) (iblk m c 9 t) y
      = Gfin m c (((cfg0.win 10).blk t).view.emb y) := by
  obtain ⟨⟨a00, a01, a02, a03⟩, ⟨a10, a11, a12, a13⟩, ⟨a20, a21, a22, a23⟩, -, ⟨a90, a91, a92, a93⟩, ⟨b0, b1, b2, b3⟩⟩ := idx_facts t
  obtain ⟨r, e, rfl⟩ : ∃ (r : Fin 512) (e : Fin 64), y = ix4 (0 : Fin 1) (0 : Fin 1) r e := ⟨y 2, y 3, funext fun a => by
    match a with
    | ⟨0, _⟩ => exact Subsingleton.elim (α := Fin 1) _ _
    | ⟨1, _⟩ => exact Subsingleton.elim (α := Fin 1) _ _
    | ⟨2, _⟩ => rfl
    | ⟨3, _⟩ => rfl⟩
  refine (Row.block_row (iblk m c 0 t) (iblk m c 1 t) (iblk m c 2 t) (iblk m c 3 t) (iblk m c 4 t) (iblk m c 5 t) (iblk m c 6 t)
    (iblk m c 7 t) (iblk m c 8 t) (iblk m c 9 t) r e).trans ?_
  rw [wblk3 m c t, wblk4 m c t, wblk5 m c t, wblk6 m c t, wblk7 m c t, wblk8 m c t]
  unfold Gfin G
  refine head_congr (fun f => ?_) (fun u f => ?_) (fun u f => ?_) (fun u => ?_) ?_
  · refine (qblk_apply m c t r f (ix4 (((cfg0.win 10).blk t).view.emb (ix4 (0 : Fin 1) (0 : Fin 1) r e) 0)
        (((cfg0.win 10).blk t).view.emb (ix4 (0 : Fin 1) (0 : Fin 1) r e) 1)
        (((cfg0.win 10).blk t).view.emb (ix4 (0 : Fin 1) (0 : Fin 1) r e) 2) f) ?_ ?_ ?_ ?_).trans ?_
    · show win0_10.index t (0 : Fin 4) * 1 + 1 * 0 = win0_0.index t (0 : Fin 4); omega
    · show win0_10.index t (1 : Fin 4) * 1 + 1 * 0 = win0_0.index t (1 : Fin 4); omega
    · show win0_10.index t (2 : Fin 4) * 512 + 1 * r.val = win0_0.index t (2 : Fin 4) * 512 + r.val; omega
    · show f.val = win0_0.index t (3 : Fin 4) * 64 + f.val; omega
    · rw [V_v0]; exact transposed_apply _ _ _ _ _
  · refine (kblk_apply m c t u f (ix4 (((cfg0.win 10).blk t).view.emb (ix4 (0 : Fin 1) (0 : Fin 1) r e) 0)
        (((cfg0.win 10).blk t).view.emb (ix4 (0 : Fin 1) (0 : Fin 1) r e) 1) u f) ?_ ?_ ?_ ?_).trans ?_
    · show win0_10.index t (0 : Fin 4) * 1 + 1 * 0 = win0_1.index t (0 : Fin 4); omega
    · show win0_10.index t (1 : Fin 4) * 1 + 1 * 0 = win0_1.index t (1 : Fin 4); omega
    · show u.val = win0_1.index t (2 : Fin 4) * 2048 + u.val; omega
    · show f.val = win0_1.index t (3 : Fin 4) * 64 + f.val; omega
    · rw [V_v1]; exact transposed_apply _ _ _ _ _
  · refine (vblk_apply m c t u f (ix4 (((cfg0.win 10).blk t).view.emb (ix4 (0 : Fin 1) (0 : Fin 1) r e) 0)
        (((cfg0.win 10).blk t).view.emb (ix4 (0 : Fin 1) (0 : Fin 1) r e) 1) u f) ?_ ?_ ?_ ?_).trans ?_
    · show win0_10.index t (0 : Fin 4) * 1 + 1 * 0 = win0_2.index t (0 : Fin 4); omega
    · show win0_10.index t (1 : Fin 4) * 1 + 1 * 0 = win0_2.index t (1 : Fin 4); omega
    · show u.val = win0_2.index t (2 : Fin 4) * 2048 + u.val; omega
    · show f.val = win0_2.index t (3 : Fin 4) * 64 + f.val; omega
    · rw [V_v2]; exact transposed_apply _ _ _ _ _
  · rw [mblk_apply m c t r u (ix4 (((cfg0.win 10).blk t).view.emb (ix4 (0 : Fin 1) (0 : Fin 1) r e) 0)
        (((cfg0.win 10).blk t).view.emb (ix4 (0 : Fin 1) (0 : Fin 1) r e) 1)
        (((cfg0.win 10).blk t).view.emb (ix4 (0 : Fin 1) (0 : Fin 1) r e) 2) u)
      (by show win0_10.index t (0 : Fin 4) * 1 + 1 * 0 = win0_9.index t (0 : Fin 4); omega)
      (by show win0_10.index t (1 : Fin 4) * 1 + 1 * 0 = win0_9.index t (1 : Fin 4); omega)
      (by show win0_10.index t (2 : Fin 4) * 512 + 1 * r.val = win0_9.index t (2 : Fin 4) * 512 + r.val; omega)
      (by show u.val = win0_9.index t (3 : Fin 4) * 2048 + u.val; omega), V_v3]
    exact ne_zero_widened _
  · apply Fin.ext
    show e.val = win0_10.index t (3 : Fin 4) * 64 + 1 * e.val
    omega

/-- WHAT POINT t WRITES BACK is block t of G of the raw inputs. -/
theorem flushed_eq (c : Dev nD) (t : Fin cfg0.N) :
    (dats m 0 c).flushed 10 t = ((cfg0.win 10).blk t).view.read (Elt Ideal) (Gfin m c) := by
  rw [flushed10]
  unfold out0_10
  rw [View.canon_unit_zero hz4]
  simp only [View.ld_unit_zero (S := S1x1x512x64) hz4, View.ld_unit_zero (S := S1x1x2048x64) hz4,
    View.ld_unit_zero (S := S64x64) hz2, View.ld_unit_zero (S := S64) hz1, View.ld_unit_zero (S := S1x1x512x2048) hz4]
  funext j
  exact point_row m c t j

/-! ## The blocks tile the array -/

/-- An index of the result array is in point t's block iff each coordinate is in the block's range on its axis. -/
theorem mem_blk (t : Fin cfg0.N) (i : S4x8x2048x64.Idx) :
    i ∈ ((cfg0.win 10).blk t).view.set ↔ ∀ a : Fin 4, win0_10.index t a * S1x1x512x64.size a ≤ (i a).val
      ∧ (i a).val < win0_10.index t a * S1x1x512x64.size a + S1x1x512x64.size a := by
  show i ∈ ((View.whole main_v4).slice (win0_10.rect t)).set ↔ _
  rw [View.set_slice_whole, Rect.mem_set_unit]
  exact Iff.rfl

/-- Every index (b, h, s, e) of the result array is in the block of the point (b, h, s / 512). -/
theorem cover (i : S4x8x2048x64.Idx) : ∃ t : Fin cfg0.N, (cfg0.win 10).flush t = true ∧ i ∈ ((cfg0.win 10).blk t).view.set := by
  have hi0 : (i 0).val < 4 := (i 0).isLt
  have hi1 : (i 1).val < 8 := (i 1).isLt
  have hi2 : (i 2).val < 2048 := (i 2).isLt
  have hi3 : (i 3).val < 64 := (i 3).isLt
  obtain ⟨t, ht⟩ := idx_onto ⟨(i 0).val, hi0⟩ ⟨(i 1).val, hi1⟩ ⟨(i 2).val / 512, by omega⟩
  have q0 : win0_10.index t (0 : Fin 4) = (i 0).val := congrFun ht 0
  have q1 : win0_10.index t (1 : Fin 4) = (i 1).val := congrFun ht 1
  have q2 : win0_10.index t (2 : Fin 4) = (i 2).val / 512 := congrFun ht 2
  have q3 : win0_10.index t (3 : Fin 4) = 0 := congrFun ht 3
  refine ⟨t, flush0_10 t, ?_⟩
  rw [mem_blk]
  intro a
  match a with
  | ⟨0, _⟩ => show win0_10.index t (0 : Fin 4) * 1 ≤ (i 0).val ∧ (i 0).val < win0_10.index t (0 : Fin 4) * 1 + 1; omega
  | ⟨1, _⟩ => show win0_10.index t (1 : Fin 4) * 1 ≤ (i 1).val ∧ (i 1).val < win0_10.index t (1 : Fin 4) * 1 + 1; omega
  | ⟨2, _⟩ => show win0_10.index t (2 : Fin 4) * 512 ≤ (i 2).val ∧ (i 2).val < win0_10.index t (2 : Fin 4) * 512 + 512; omega
  | ⟨3, _⟩ => show win0_10.index t (3 : Fin 4) * 64 ≤ (i 3).val ∧ (i 3).val < win0_10.index t (3 : Fin 4) * 64 + 64; omega

/-- THE ARRAY after the run is G of the raw inputs. -/
theorem final (c : Dev nD) : (dats m 0 c).arrAt 10 cfg0.N = Gfin m c :=
  (dats m 0 c).arrAt_eq_of_cover 10 (Gfin m c) (fun t _ => flushed_eq m c t) cover

/-! ## The run, read -/

/-- The frame run re-posted: the result array at G of the raw inputs, the arguments unchanged. -/
theorem run : θ_run defs (onTc (τ := τ) (main (F := Ideal))) ⟨m, fun _ => 0, ρ⟩ fun r => ∀ c : Dev nD,
      r.2.mem ((c : Thread nD τ).loc main_v4) = Gfin m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (run_blocks m ρ)

end Cert.KernelIdeal.Whole

end
-- ==== Proof.RefIsHead.lean ====
/-
  The reference program's result is the attention head of HeadSpec, read one element at a time.

  Each stage of the reference is read at an index written by its coordinates (batch b, head h, query position s, key
  position t, feature f or e) and identified with the row function of HeadSpec that it computes:
    the three linear layers after their transposes are `lin` of the raw row (b, s, h), (b, t, h);
    the scaled dot products are `score`; the reduced maximum, taken once more against minus infinity, is `rowMax`;
    the shifted exponentials are `expShift`, their sum from the zero word is the plain sum, the quotient is `softmax`;
    the division by the keep probability and the select on the mask bit are `dropout`;
    the last contraction over key positions is `head`.
-/
import proofs.«421678_j39848706572886_3_alg».proof.Proof.Gen.ReferenceIdeal.Read
import proofs.«421678_j39848706572886_3_alg».proof.Proof.HeadSpec

noncomputable section

namespace Cert.ReferenceIdeal.RefValue

open Cert.ReferenceIdeal Cert.ReferenceIdeal.Gen Cert.ReferenceIdeal.Read Idealize.ShloMosaic Idealize.ShloMosaic.ValueIdx
open Cert.Attn

/-! ## The linear layers -/

/-- A linear layer of the reference, transposed to (batch, head, position, feature), read at (b, h, s, f): the
    contraction of the raw row (b, s, h) with column f of the weights, plus entry f of the bias. -/
theorem lin_at (x : Raw) (W : Mat64) (bias : Vec64) (b : Fin 4) (h : Fin 8) (s : Fin 2048) (f : Fin 64) :
    (∑ k : Fin 64, x (lidx_main_v0 (idx_main_v4 (ix4 b h s f)) k) * W (ridx_main_v0 (idx_main_v4 (ix4 b h s f)) k))
        + bias (idx_main_v1 (idx_main_v2 (idx_main_v4 (ix4 b h s f))))
      = lin W bias (fun e => x (ix4 b s h e)) f := by
  unfold lin
  have el : ∀ k : Fin 64, lidx_main_v0 (idx_main_v4 (ix4 b h s f)) k = ix4 b s h k := fun k => funext fun a => by
    match a with | ⟨0, _⟩ => rfl | ⟨1, _⟩ => rfl | ⟨2, _⟩ => rfl | ⟨3, _⟩ => rfl
  have er : ∀ k : Fin 64, ridx_main_v0 (idx_main_v4 (ix4 b h s f)) k = ix2 k f := fun k => funext fun a => by
    match a with | ⟨0, _⟩ => rfl | ⟨1, _⟩ => rfl
  have eb : idx_main_v1 (idx_main_v2 (idx_main_v4 (ix4 b h s f))) = ix1 f := funext fun a => by
    match a with | ⟨0, _⟩ => rfl
  rw [eb]
  exact congrArg (· + bias (ix1 f)) (Finset.sum_congr rfl fun k _ => by rw [el k, er k])

/-- The query projection at (b, h, s, f). -/
theorem v4_at (x0 : (⟨S4x2048x8x64, .f32⟩ : BufTy).Contents (Elt Ideal)) (x3 : (⟨S64x64, .f32⟩ : BufTy).Contents (Elt Ideal))
    (x4 : (⟨S64, .f32⟩ : BufTy).Contents (Elt Ideal)) (b : Fin 4) (h : Fin 8) (s : Fin 2048) (f : Fin 64) :
    val_main_v4 (F := Ideal) x0 x3 x4 (ix4 b h s f) = lin x3 x4 (fun e => x0 (ix4 b s h e)) f := by
  rw [val_main_v4_apply, val_main_v3_apply, val_main_v0_apply, val_main_v2_apply, val_main_v1_apply]
  exact lin_at x0 x3 x4 b h s f

/-- The key projection at (b, h, t, f). -/
theorem v9_at (x1 : (⟨S4x2048x8x64, .f32⟩ : BufTy).Contents (Elt Ideal)) (x5 : (⟨S64x64, .f32⟩ : BufTy).Contents (Elt Ideal))
    (x6 : (⟨S64, .f32⟩ : BufTy).Contents (Elt Ideal)) (b : Fin 4) (h : Fin 8) (t : Fin 2048) (f : Fin 64) :
    val_main_v9 (F := Ideal) x1 x5 x6 (ix4 b h t f) = lin x5 x6 (fun e => x1 (ix4 b t h e)) f := by
  rw [val_main_v9_apply, val_main_v8_apply, val_main_v5_apply, val_main_v7_apply, val_main_v6_apply]
  exact lin_at x1 x5 x6 b h t f

/-- The value projection at (b, h, t, e). -/
theorem v14_at (x2 : (⟨S4x2048x8x64, .f32⟩ : BufTy).Contents (Elt Ideal)) (x7 : (⟨S64x64, .f32⟩ : BufTy).Contents (Elt Ideal))
    (x8 : (⟨S64, .f32⟩ : BufTy).Contents (Elt Ideal)) (b : Fin 4) (h : Fin 8) (t : Fin 2048) (e : Fin 64) :
    val_main_v14 (F := Ideal) x2 x7 x8 (ix4 b h t e) = lin x7 x8 (fun e' => x2 (ix4 b t h e')) e := by
  rw [val_main_v14_apply, val_main_v13_apply, val_main_v10_apply, val_main_v12_apply, val_main_v11_apply]
  exact lin_at x2 x7 x8 b h t e

/-! ## Scores, their row maximum, the softmax and the dropout -/

section Row

variable (x0 x1 x2 : (⟨S4x2048x8x64, .f32⟩ : BufTy).Contents (Elt Ideal)) (x3 : (⟨S64x64, .f32⟩ : BufTy).Contents (Elt Ideal))
  (x4 : (⟨S64, .f32⟩ : BufTy).Contents (Elt Ideal)) (x5 : (⟨S64x64, .f32⟩ : BufTy).Contents (Elt Ideal))
  (x6 : (⟨S64, .f32⟩ : BufTy).Contents (Elt Ideal)) (x7 : (⟨S64x64, .f32⟩ : BufTy).Contents (Elt Ideal))
  (x8 : (⟨S64, .f32⟩ : BufTy).Contents (Elt Ideal)) (x9 : (⟨S4x8x2048x2048, .i1⟩ : BufTy).Contents (Elt Ideal))
  (b : Fin 4) (h : Fin 8) (s : Fin 2048)

/-- The scaled dot product of query row (b, h, s) with key row (b, h, t): the quotient by the word of 8 is the product
    with 1/8. -/
theorem v17_at (t : Fin 2048) :
    val_main_v17 (F := Ideal) x0 x1 x3 x4 x5 x6 (ix4 b h s t)
      = score x3 x4 x5 x6 (fun e => x0 (ix4 b s h e)) (fun t e => x1 (ix4 b t h e)) t := by
  rw [val_main_v17_apply, val_main_v15_apply, val_main_v16_apply, val_main_cst_apply, Ideal.hostDivf_def, Ideal.ofBits_def,
    div_eight]
  unfold score
  refine congrArg (· * eighth) (Finset.sum_congr rfl fun f _ => ?_)
  have el : lidx_main_v15 (ix4 b h s t) f = ix4 b h s f := funext fun a => by
    match a with | ⟨0, _⟩ => rfl | ⟨1, _⟩ => rfl | ⟨2, _⟩ => rfl | ⟨3, _⟩ => rfl
  have er : ridx_main_v15 (ix4 b h s t) f = ix4 b h t f := funext fun a => by
    match a with | ⟨0, _⟩ => rfl | ⟨1, _⟩ => rfl | ⟨2, _⟩ => rfl | ⟨3, _⟩ => rfl
  rw [el, er, v4_at, v9_at]

/-- Over (b, h, s), the index of the scores whose coordinate on the reduced last axis is k is (b, h, s, k). -/
theorem lift_at (hR : S4x8x2048x2048.Reduces [3] S4x8x2048) (k : Fin (S4x8x2048x2048.size 3)) :
    hR.lift (ix3 b h s) k = ix4 b h s (⟨k.val, k.isLt⟩ : Fin 2048) := by
  funext c; apply Fin.ext
  match c with | ⟨0, _⟩ => rfl | ⟨1, _⟩ => rfl | ⟨2, _⟩ => rfl | ⟨3, _⟩ => rfl

/-- The reduced maximum at (b, h, s) is the fold of max, from minus infinity, over the row of scores. -/
theorem v18_at :
    val_main_v18 (F := Ideal) x0 x1 x3 x4 x5 x6 (ix3 b h s)
      = rowMax (score x3 x4 x5 x6 (fun e => x0 (ix4 b s h e)) (fun t e => x1 (ix4 b t h e))) := by
  have hR : S4x8x2048x2048.Reduces [3] S4x8x2048 := by decide
  unfold val_main_v18
  rw [Host.reduce_eq_fold_single FloatOps.maximumf _ _ reducesTo_S4x8x2048x2048_S4x8x2048_d3 hR h_S_ (ix3 b h s)]
  have hf : (val_main_v17 (F := Ideal) x0 x1 x3 x4 x5 x6 ∘ hR.lift (ix3 b h s))
      = score x3 x4 x5 x6 (fun e => x0 (ix4 b s h e)) (fun t e => x1 (ix4 b t h e)) := funext fun k => by
    show val_main_v17 (F := Ideal) x0 x1 x3 x4 x5 x6 (hR.lift (ix3 b h s) k) = _
    rw [lift_at b h s hR k, v17_at]
    rfl
  exact congrArg (fun f => Finset.fold max negInf f (Finset.univ : Finset (Fin 2048))) hf

/-- Taking the maximum with minus infinity once more leaves the row maximum. -/
theorem v20_at :
    val_main_v20 (F := Ideal) x0 x1 x3 x4 x5 x6 (ix3 b h s)
      = rowMax (score x3 x4 x5 x6 (fun e => x0 (ix4 b s h e)) (fun t e => x1 (ix4 b t h e))) := by
  rw [val_main_v20_apply, val_main_v19_apply, val_main_cst_1_apply, v18_at, Ideal.maximumf_def, Ideal.ofBits_def]
  exact max_negInf_rowMax _

/-- The shifted exponential at (b, h, s, t). -/
theorem v24_at (t : Fin 2048) :
    val_main_v24 (F := Ideal) x0 x1 x3 x4 x5 x6 (ix4 b h s t)
      = expShift (score x3 x4 x5 x6 (fun e => x0 (ix4 b s h e)) (fun t e => x1 (ix4 b t h e))) t := by
  have e3 : idx_main_v21 (idx_main_v22 (ix4 b h s t)) = ix3 b h s := funext fun a => by
    match a with | ⟨0, _⟩ => rfl | ⟨1, _⟩ => rfl | ⟨2, _⟩ => rfl
  rw [val_main_v24_apply, val_main_v23_apply, val_main_v22_apply, val_main_v21_apply, e3, v20_at, v17_at,
    Ideal.hostUnary_exp_def, Ideal.subf_def]
  rfl

/-- The sum of the shifted exponentials at (b, h, s): the initial zero word adds nothing. -/
theorem v25_at :
    val_main_v25 (F := Ideal) x0 x1 x3 x4 x5 x6 (ix3 b h s)
      = ∑ u : Fin 2048, expShift (score x3 x4 x5 x6 (fun e => x0 (ix4 b s h e)) (fun t e => x1 (ix4 b t h e))) u := by
  rw [val_main_v25_apply, val_main_cst_2_apply, Ideal.ofBits_def, Ideal.ofBits_zero_f32, zero_add]
  refine Finset.sum_congr rfl fun u _ => ?_
  have e4 : idx_main_v25 (ix3 b h s) u = ix4 b h s u := funext fun a => by
    match a with | ⟨0, _⟩ => rfl | ⟨1, _⟩ => rfl | ⟨2, _⟩ => rfl | ⟨3, _⟩ => rfl
  rw [e4, v24_at]

/-- The probability at (b, h, s, t). -/
theorem v28_at (t : Fin 2048) :
    val_main_v28 (F := Ideal) x0 x1 x3 x4 x5 x6 (ix4 b h s t)
      = softmax (score x3 x4 x5 x6 (fun e => x0 (ix4 b s h e)) (fun t e => x1 (ix4 b t h e))) t := by
  have e3 : idx_main_v26 (idx_main_v27 (ix4 b h s t)) = ix3 b h s := funext fun a => by
    match a with | ⟨0, _⟩ => rfl | ⟨1, _⟩ => rfl | ⟨2, _⟩ => rfl
  rw [val_main_v28_apply, val_main_v27_apply, val_main_v26_apply, e3, v25_at, v24_at, Ideal.hostDivf_def]
  rfl

/-- The probability after inverted dropout at (b, h, s, t): divided by the keep probability's word where the mask bit
    keeps, the zero word where it drops. -/
theorem v31_at (t : Fin 2048) :
    val_main_v31 (F := Ideal) x0 x1 x3 x4 x5 x6 x9 (ix4 b h s t)
      = dropout (x9 (ix4 b h s t)) (softmax (score x3 x4 x5 x6 (fun e => x0 (ix4 b s h e)) (fun t e => x1 (ix4 b t h e))) t) := by
  rw [val_main_v31_apply, val_main_v30_apply, val_main_v29_apply, val_main_cst_3_apply, val_main_call0_v1_apply,
    val_main_call0_v0_apply, val_main_cst_4_apply, v28_at, Ideal.hostDivf_def, Ideal.ofBits_def, Ideal.ofBits_def, div_keep]
  rfl

/-! ## The result -/

/-- The result at (b, h, s, e) is the head's row for query row (b, s, h), key and value rows (b, t, h) and mask row
    (b, h, s), at feature e. -/
theorem v32_at (e : Fin 64) :
    val_main_v32 (F := Ideal) x0 x1 x2 x3 x4 x5 x6 x7 x8 x9 (ix4 b h s e)
      = head x3 x4 x5 x6 x7 x8 (fun e => x0 (ix4 b s h e)) (fun t e => x1 (ix4 b t h e)) (fun t e => x2 (ix4 b t h e))
          (fun t => x9 (ix4 b h s t)) e := by
  rw [val_main_v32_apply]
  unfold head
  refine Finset.sum_congr rfl fun t _ => ?_
  have el : lidx_main_v32 (ix4 b h s e) t = ix4 b h s t := funext fun a => by
    match a with | ⟨0, _⟩ => rfl | ⟨1, _⟩ => rfl | ⟨2, _⟩ => rfl | ⟨3, _⟩ => rfl
  have er : ridx_main_v32 (ix4 b h s e) t = ix4 b h t e := funext fun a => by
    match a with | ⟨0, _⟩ => rfl | ⟨1, _⟩ => rfl | ⟨2, _⟩ => rfl | ⟨3, _⟩ => rfl
  rw [el, er, v31_at, v14_at]

end Row

/-- The reference's result array is G of the raw inputs. -/
theorem result_eq (x0 x1 x2 : (⟨S4x2048x8x64, .f32⟩ : BufTy).Contents (Elt Ideal)) (x3 : (⟨S64x64, .f32⟩ : BufTy).Contents (Elt Ideal))
    (x4 : (⟨S64, .f32⟩ : BufTy).Contents (Elt Ideal)) (x5 : (⟨S64x64, .f32⟩ : BufTy).Contents (Elt Ideal)) (x6 : (⟨S64, .f32⟩ : BufTy).Contents (Elt Ideal))
    (x7 : (⟨S64x64, .f32⟩ : BufTy).Contents (Elt Ideal)) (x8 : (⟨S64, .f32⟩ : BufTy).Contents (Elt Ideal))
    (x9 : (⟨S4x8x2048x2048, .i1⟩ : BufTy).Contents (Elt Ideal)) :
    val_main_v32 (F := Ideal) x0 x1 x2 x3 x4 x5 x6 x7 x8 x9 = Cert.Attn.G x0 x1 x2 x3 x4 x5 x6 x7 x8 x9 := by
  funext i
  exact (congrArg (val_main_v32 (F := Ideal) x0 x1 x2 x3 x4 x5 x6 x7 x8 x9) (eq_ix4 i)).trans
    (v32_at x0 x1 x2 x3 x4 x5 x6 x7 x8 x9 (i 0) (i 1) (i 2) (i 3))

end Cert.ReferenceIdeal.RefValue

end
-- ==== Proof.lean ====
/-
  The kernel computes multi-head attention with inverted dropout in one fused pass, and the reference computes it with
  jnp's einsums and softmax; at the ideal instance both result arrays are the same function of the raw inputs.

  For batch entry b, head h, position s and feature e the result is the head's row (Proof/HeadSpec.lean, `Cert.Attn.G`):
  with q, k_t, v_t the linear layers (x W + b) of the raw query row (b, s, h) and the raw key and value rows (b, t, h),
    out = sum_t d_t * v_t[e],   d_t = softmax_t ((q . k_u) / 8) / D where the mask keeps t, 0 where it drops it,
  D the f32 word of 0.9. The kernel multiplies the scores by the word of 1/8 where the reference divides by the word of 8,
  and multiplies the probabilities by its NAMED constant where the reference divides by D: the certificate's table reads
  the kernel's word 0x3F8E38E4 as the exact reciprocal 8388608/7549747 of D = 7549747/8388608 (the one ledger entry,
  `preserves`), and dividing by a nonzero real is multiplying by its inverse on every extended real, the infinities
  included. Nothing else differs: a matmul into the zero accumulator and a dot_general are the same finite sum, the
  kernel's lane maximum and lane sum are the host's reductions, a maximum taken once more against minus infinity changes
  nothing, and a widened mask word is not zero exactly where the mask bit is set. No law used needs the inputs finite.

  Kernel side (Proof/KernelRow.lean, Proof/KernelValue.lean): the tile the body stores at a grid point is the head's row
  for each of its 512 query rows; the point's blocks are the rows (b, h) of the transposed inputs; the 128 blocks tile
  the result array. Reference side (Proof/RefIsHead.lean): each stage of the reference read at coordinates.
-/
import proofs.«421678_j39848706572886_3_alg».proof.Defs
import proofs.«421678_j39848706572886_3_alg».proof.Proof.Gen.Kernel
import proofs.«421678_j39848706572886_3_alg».proof.Proof.Gen.Kernel.Skeleton
import proofs.«421678_j39848706572886_3_alg».proof.Proof.Gen.Kernel.Launch
import proofs.«421678_j39848706572886_3_alg».proof.Proof.Gen.Kernel.Points
import proofs.«421678_j39848706572886_3_alg».proof.Proof.Gen.Kernel.Frame
import proofs.«421678_j39848706572886_3_alg».proof.Proof.Gen.KernelIdeal
import proofs.«421678_j39848706572886_3_alg».proof.Proof.Gen.KernelIdeal.Skeleton
import proofs.«421678_j39848706572886_3_alg».proof.Proof.Gen.KernelIdeal.Launch
import proofs.«421678_j39848706572886_3_alg».proof.Proof.Gen.KernelIdeal.Points
import proofs.«421678_j39848706572886_3_alg».proof.Proof.Gen.KernelIdeal.Frame
import proofs.«421678_j39848706572886_3_alg».proof.Proof.Gen.ReferenceIdeal
import proofs.«421678_j39848706572886_3_alg».proof.Proof.Gen.Pre_finite_inputs
import proofs.«421678_j39848706572886_3_alg».proof.Proof.Gen.KernelIdeal.Value
import proofs.«421678_j39848706572886_3_alg».proof.Proof.Gen.ReferenceIdeal.Run
import proofs.«421678_j39848706572886_3_alg».proof.Proof.Gen.ReferenceIdeal.Read
import proofs.«421678_j39848706572886_3_alg».proof.Proof.KernelValue
import proofs.«421678_j39848706572886_3_alg».proof.Proof.RefIsHead
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ledger's one entry: the table gives the kernel's dropout scale the value 8388608/7549747, the exact reciprocal
    of the reference's divisor. -/
theorem preserves : Cert.preserves_Kernel_KernelIdeal :=
  IdealRules.named_const.statement Cert.KernelIdeal.κ "inv_keep_prob" .f32 0x3F8E38E4#32 ((8388608 / 7549747 : ℝ) : EReal) rfl

/-- From memories that agree on the arguments both programs end with the result array at G of the raw inputs. -/
theorem algebraic : Cert.algebraic_KernelIdeal_ReferenceIdeal := by
  intro m ρ m' ρ' _ hagree
  refine ⟨fun c => Cert.KernelIdeal.Whole.Gfin m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, Cert.ReferenceIdeal.RefValue.result_eq]
  obtain ⟨h0, h1, h2, h3, h4, h5, h6, h7, h8, h9⟩ := hagree c
  rw [h0, h1, h2, h3, h4, h5, h6, h7, h8, h9]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
